-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000x3 : Shape := ⟨2, ![500000, 3]⟩
abbrev S50000x3 : Shape := ⟨2, ![50000, 3]⟩
abbrev S500000 : Shape := ⟨1, ![500000]⟩
abbrev S131x64 : Shape := ⟨2, ![131, 64]⟩
abbrev S64 : Shape := ⟨1, ![64]⟩
abbrev S64x1 : Shape := ⟨2, ![64, 1]⟩
abbrev S1 : Shape := ⟨1, ![1]⟩
abbrev S131x128 : Shape := ⟨2, ![131, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000x3 : S_.BroadcastsInDim S500000x3 (![] : Fin 0 → Fin S500000x3.rank)
  reducesTo_S500000x3_S_d0_1 : S500000x3.ReducesTo [0, 1] S_
  bcast_S_S50000x3 : S_.BroadcastsInDim S50000x3 (![] : Fin 0 → Fin S50000x3.rank)
  reducesTo_S50000x3_S_d0_1 : S50000x3.ReducesTo [0, 1] S_
  bcast_S_S131x64 : S_.BroadcastsInDim S131x64 (![] : Fin 0 → Fin S131x64.rank)
  reducesTo_S131x64_S_d0_1 : S131x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S131x128 : S_.BroadcastsInDim S131x128 (![] : Fin 0 → Fin S131x128.rank)
  reducesTo_S131x128_S_d0_1 : S131x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg8 : FVec F S131x128 .f32) (main_arg9 : FVec F S128 .f32) (main_arg10 : FVec F S128x256 .f32) (main_arg11 : FVec F S256 .f32) (main_v33 : IVec S_ 1) : IVec S_ 1 :=
  let main_v34 : FVec F S131x128 .f32 := Host.absf main_arg8
  let main_cst_12 : FVec F S_ .f32 := constant S_ .f32 0x7F800000#32
  let main_v35 : FVec F S131x128 .f32 := broadcastInDim S131x128 ![] bcast_S_S131x128 main_cst_12
  let main_v36 : IVec S131x128 1 := cmpf .olt main_v34 main_v35
  let main_c_13 : IVec S_ 1 := constantI S_ 1 1#1
  let main_v37 : IVec S_ 1 := (fun x v => Host.reduce IntOp.andi x v reducesTo_S131x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg5 : FVec F S64 .f32) (main_arg6 : FVec F S64x1 .f32) (main_arg7 : FVec F S1 .f32) (main_arg8 : FVec F S131x128 .f32) (main_arg9 : FVec F S128 .f32) (main_arg10 : FVec F S128x256 .f32) (main_arg11 : FVec F S256 .f32) (main_v13 : IVec S_ 1) (main_v16 : IVec S131x64 1) : IVec S_ 1 :=
  let main_c_5 : IVec S_ 1 := constantI S_ 1 1#1
  let main_v17 : IVec S_ 1 := (fun x v => Host.reduce IntOp.andi x v reducesTo_S131x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S500000x128 .f32) (main_arg1 : FVec F S500000x3 .f32) (main_arg2 : FVec F S50000x3 .f32) (main_arg3 : IVec S500000 32) (main_arg4 : FVec F S131x64 .f32) (main_arg5 : FVec F S64 .f32) (main_arg6 : FVec F S64x1 .f32) (main_arg7 : FVec F S1 .f32) (main_arg8 : FVec F S131x128 .f32) (main_arg9 : FVec F S128 .f32) (main_arg10 : FVec F S128x256 .f32) (main_arg11 : FVec F S256 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x3 .f32 := Host.absf main_arg1
  let main_cst_0 : FVec F S_ .f32 := constant S_ .f32 0x7F800000#32
  let main_v5 : FVec F S500000x3 .f32 := broadcastInDim S500000x3 ![] bcast_S_S500000x3 main_cst_0
  let main_v6 : IVec S500000x3 1 := cmpf .olt main_v4 main_v5
  let main_c_1 : IVec S_ 1 := constantI S_ 1 1#1
  let main_v7 : IVec S_ 1 := (fun x v => Host.reduce IntOp.andi x v reducesTo_S500000x3_S_d0_1 h_S_) main_v6 main_c_1
  let main_v8 : IVec S_ 1 := andi main_v3 main_v7
  let main_v9 : FVec F S50000x3 .f32 := Host.absf main_arg2
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S131x64 .f32 := Host.absf main_arg4
  let main_cst_4 : FVec F S_ .f32 := constant S_ .f32 0x7F800000#32
  let main_v15 : FVec F S131x64 .f32 := broadcastInDim S131x64 ![] bcast_S_S131x64 main_cst_4
  let main_v16 : IVec S131x64 1 := cmpf .olt main_v14 main_v15
  fn_part1 (F := F) main_arg5 main_arg6 main_arg7 main_arg8 main_arg9 main_arg10 main_arg11 main_v13 main_v16
-- ==== Kernel.lean ====
abbrev S500000x128 : Shape := ⟨2, ![500000, 128]⟩
abbrev S500000x3 : Shape := ⟨2, ![500000, 3]⟩
abbrev S50000x3 : Shape := ⟨2, ![50000, 3]⟩
abbrev S500000 : Shape := ⟨1, ![500000]⟩
abbrev S131x64 : Shape := ⟨2, ![131, 64]⟩
abbrev S64 : Shape := ⟨1, ![64]⟩
abbrev S64x1 : Shape := ⟨2, ![64, 1]⟩
abbrev S1 : Shape := ⟨1, ![1]⟩
abbrev S131x128 : Shape := ⟨2, ![131, 128]⟩
abbrev S128 : Shape := ⟨1, ![128]⟩
abbrev S128x256 : Shape := ⟨2, ![128, 256]⟩
abbrev S256 : Shape := ⟨1, ![256]⟩
abbrev S_ : Shape := ⟨0, ![]⟩
abbrev S500000x1 : Shape := ⟨2, ![500000, 1]⟩
abbrev S128x64 : Shape := ⟨2, ![128, 64]⟩
abbrev S3x64 : Shape := ⟨2, ![3, 64]⟩
abbrev S500000x131 : Shape := ⟨2, ![500000, 131]⟩
abbrev S10000x128 : Shape := ⟨2, ![10000, 128]⟩
abbrev S10000x3 : Shape := ⟨2, ![10000, 3]⟩
abbrev S10000x131 : Shape := ⟨2, ![10000, 131]⟩
abbrev S10000x64 : Shape := ⟨2, ![10000, 64]⟩
abbrev S1x64 : Shape := ⟨2, ![1, 64]⟩
abbrev S10000x1 : Shape := ⟨2, ![10000, 1]⟩
abbrev S1x1 : Shape := ⟨2, ![1, 1]⟩
abbrev S50000x131 : Shape := ⟨2, ![50000, 131]⟩
abbrev S50000x256 : Shape := ⟨2, ![50000, 256]⟩
abbrev S10000x256 : Shape := ⟨2, ![10000, 256]⟩
abbrev S1x128 : Shape := ⟨2, ![1, 128]⟩
abbrev S1x256 : Shape := ⟨2, ![1, 256]⟩

abbrev nBuf : Space → Nat
  | .hbm => 29
  | .vmem => 21
  | .smem => 0
  | _ => 0

abbrev bufTy : (tb : Table) → Fin (tcTables nBuf tb) → BufTy
  | .hbm, ⟨0, _⟩ => ⟨S500000x128, .f32⟩
  | .hbm, ⟨1, _⟩ => ⟨S500000x3, .f32⟩
  | .hbm, ⟨2, _⟩ => ⟨S50000x3, .f32⟩
  | .hbm, ⟨3, _⟩ => ⟨S500000, .i32⟩
  | .hbm, ⟨4, _⟩ => ⟨S131x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S131x128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x3, .f32⟩
  | .hbm, ⟨21, _⟩ => ⟨S128x64, .f32⟩
  | .hbm, ⟨22, _⟩ => ⟨S3x64, .f32⟩
  | .hbm, ⟨23, _⟩ => ⟨S500000x131, .f32⟩
  | .hbm, ⟨24, _⟩ => ⟨S_, .f32⟩
  | .hbm, ⟨25, _⟩ => ⟨S50000x131, .f32⟩
  | .hbm, ⟨26, _⟩ => ⟨S500000x1, .i32⟩
  | .hbm, ⟨27, _⟩ => ⟨S50000x131, .f32⟩
  | .hbm, ⟨28, _⟩ => ⟨S50000x256, .f32⟩
  | .local _ .vmem, ⟨0, _⟩ => ⟨S10000x128, .f32⟩
  | .local _ .vmem, ⟨1, _⟩ => ⟨S10000x128, .f32⟩
  | .local _ .vmem, ⟨2, _⟩ => ⟨S10000x3, .f32⟩
  | .local _ .vmem, ⟨3, _⟩ => ⟨S10000x3, .f32⟩
  | .local _ .vmem, ⟨4, _⟩ => ⟨S10000x3, .f32⟩
  | .local _ .vmem, ⟨5, _⟩ => ⟨S10000x3, .f32⟩
  | .local _ .vmem, ⟨6, _⟩ => ⟨S128x64, .f32⟩
  | .local _ .vmem, ⟨7, _⟩ => ⟨S3x64, .f32⟩
  | .local _ .vmem, ⟨8, _⟩ => ⟨S64, .f32⟩
  | .local _ .vmem, ⟨9, _⟩ => ⟨S64x1, .f32⟩
  | .local _ .vmem, ⟨10, _⟩ => ⟨S1, .f32⟩
  | .local _ .vmem, ⟨11, _⟩ => ⟨S10000x131, .f32⟩
  | .local _ .vmem, ⟨12, _⟩ => ⟨S10000x131, .f32⟩
  | .local _ .vmem, ⟨13, _⟩ => ⟨S10000x131, .f32⟩
  | .local _ .vmem, ⟨14, _⟩ => ⟨S10000x131, .f32⟩
  | .local _ .vmem, ⟨15, _⟩ => ⟨S131x128, .f32⟩
  | .local _ .vmem, ⟨16, _⟩ => ⟨S128, .f32⟩
  | .local _ .vmem, ⟨17, _⟩ => ⟨S128x256, .f32⟩
  | .local _ .vmem, ⟨18, _⟩ => ⟨S256, .f32⟩
  | .local _ .vmem, ⟨19, _⟩ => ⟨S10000x256, .f32⟩
  | .local _ .vmem, ⟨20, _⟩ => ⟨S10000x256, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x131 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x131 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S131x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  slices_S131x64_S128x64_0_0 : S131x64.Slices ![0, 0] S128x64
  slices_S131x64_S3x64_128_0 : S131x64.Slices ![128, 0] S3x64
  inb_S10000x128_S10000x128_0_0 : ∀ a, (![0, 0] : Fin 2 → Nat) a + S10000x128.size a ≤ S10000x128.size a
  h_S10000x128 : 0 < S10000x128.numel
  inb_S10000x3_S10000x3_0_0 : ∀ a, (![0, 0] : Fin 2 → Nat) a + S10000x3.size a ≤ S10000x3.size a
  h_S10000x3 : 0 < S10000x3.numel
  shapeCasts_S10000x3_S10000x3 : S10000x3.ShapeCasts S10000x3
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  broadcasts_S10000x1_S10000x128 : S10000x1.Broadcasts S10000x128
  inb_S10000x131_S10000x128_0_0 : ∀ a, (![0, 0] : Fin 2 → Nat) a + S10000x128.size a ≤ S10000x131.size a
  broadcasts_S10000x1_S10000x3 : S10000x1.Broadcasts S10000x3
  inb_S10000x131_S10000x3_0_128 : ∀ a, (![0, 128] : Fin 2 → Nat) a + S10000x3.size a ≤ S10000x131.size a
  bcast_S_S50000x131 : S_.BroadcastsInDim S50000x131 (![] : Fin 0 → Fin S50000x131.rank)
  inb_S10000x131_S10000x131_0_0 : ∀ a, (![0, 0] : Fin 2 → Nat) a + S10000x131.size a ≤ S10000x131.size a
  h_S10000x131 : 0 < S10000x131.numel
  shapeCasts_S10000x131_S10000x131 : S10000x131.ShapeCasts S10000x131
  inb_S131x128_S131x128_0_0 : ∀ a, (![0, 0] : Fin 2 → Nat) a + S131x128.size a ≤ S131x128.size a
  h_S131x128 : 0 < S131x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S10000x256 : S1x256.Broadcasts S10000x256
  inb_S10000x256_S10000x256_0_0 : ∀ a, (![0, 0] : Fin 2 → Nat) a + S10000x256.size a ≤ S10000x256.size a
  h_S10000x256 : 0 < S10000x256.numel
  gather_S50000x3_S500000x1_S500000x3_1_0_n_n_0_1_13_wf : GatherDims.WF S50000x3 S500000x1 S500000x3 [1] [0] [] [0] [] 1 ![1, 3]
  dot_S10000x128_S128x64_S10000x64_1_0_0_1_n_n_wf : DotDims.WF S10000x128 S128x64 S10000x64 [1] [0] [0] [1] [] []
  dot_S10000x3_S3x64_S10000x64_1_0_0_1_n_n_wf : DotDims.WF S10000x3 S3x64 S10000x64 [1] [0] [0] [1] [] []
  dot_S10000x64_S64x1_S10000x1_1_0_0_1_n_n_wf : DotDims.WF S10000x64 S64x1 S10000x1 [1] [0] [0] [1] [] []
  scatter_S50000x131_S500000x1_S500000x131_1_0_0_1_wf : ScatterDims.WF S50000x131 S500000x1 S500000x131 [1] [0] [0] 1
  dot_S10000x131_S131x128_S10000x128_1_0_0_1_n_n_wf : DotDims.WF S10000x131 S131x128 S10000x128 [1] [0] [0] [1] [] []
  dot_S10000x128_S128x256_S10000x256_1_0_0_1_n_n_wf : DotDims.WF S10000x128 S128x256 S10000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x3.size a ≤ S500000x3.size a
  hwx0_1 : ∀ i : grid0.Coords, EltTy.bits .f32 = 32 ∨ (Rect.block (s := S500000x3) S10000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x3.size a ≤ S500000x3.size a
  hwx0_2 : ∀ i : grid0.Coords, EltTy.bits .f32 = 32 ∨ (Rect.block (s := S500000x3) S10000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x131.size a ≤ S500000x131.size a
  hwx0_8 : ∀ i : grid0.Coords, EltTy.bits .f32 = 32 ∨ (Rect.block (s := S500000x131) S10000x131.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x131.size a ≤ S50000x131.size a
  hwx1_0 : ∀ i : grid1.Coords, EltTy.bits .f32 = 32 ∨ (Rect.block (s := S50000x131) S10000x131.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S131x128.size a ≤ S131x128.size a
  hwx1_1 : ∀ i : grid1.Coords, EltTy.bits .f32 = 32 ∨ (Rect.block (s := S131x128) S131x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x256.size a ≤ S50000x256.size a
  hwx1_5 : ∀ i : grid1.Coords, EltTy.bits .f32 = 32 ∨ (Rect.block (s := S50000x256) S10000x256.size (cc1_transform_5 i) (hinb1_5 i)).WholeWords (EltTy.packing .f32)

variable [Facts₀]

def gather_S50000x3_S500000x1_S500000x3_1_0_n_n_0_1_13 : GatherDims S50000x3 S500000x1 S500000x3 where
  offsetDims := [1]
  collapsedSliceDims := [0]
  operandBatchingDims := []
  startIndicesBatchingDims := []
  startIndexMap := [0]
  indexVectorDim := 1
  sliceSizes := ![1, 3]
  wf := gather_S50000x3_S500000x1_S500000x3_1_0_n_n_0_1_13_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x3_S3x64_S10000x64_1_0_0_1_n_n : DotDims S10000x3 S3x64 S10000x64 where
  lhsContracting := [1]
  rhsContracting := [0]
  lhsNonContracting := [0]
  rhsNonContracting := [1]
  lhsBatch := []
  rhsBatch := []
  wf := dot_S10000x3_S3x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def scatter_S50000x131_S500000x1_S500000x131_1_0_0_1 : ScatterDims S50000x131 S500000x1 S500000x131 where
  updateWindowDims := [1]
  insertedWindowDims := [0]
  scatterDimsToOperandDims := [0]
  indexVectorDim := 1
  wf := scatter_S50000x131_S500000x1_S500000x131_1_0_0_1_wf
def dot_S10000x131_S131x128_S10000x128_1_0_0_1_n_n : DotDims S10000x131 S131x128 S10000x128 where
  lhsContracting := [1]
  rhsContracting := [0]
  lhsNonContracting := [0]
  rhsNonContracting := [1]
  lhsBatch := []
  rhsBatch := []
  wf := dot_S10000x131_S131x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S10000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S10000x131.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v12) S10000x131.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S131x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S10000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S500000x128 : Shape := ⟨2, ![500000, 128]⟩
abbrev S500000x3 : Shape := ⟨2, ![500000, 3]⟩
abbrev S50000x3 : Shape := ⟨2, ![50000, 3]⟩
abbrev S500000 : Shape := ⟨1, ![500000]⟩
abbrev S131x64 : Shape := ⟨2, ![131, 64]⟩
abbrev S64 : Shape := ⟨1, ![64]⟩
abbrev S64x1 : Shape := ⟨2, ![64, 1]⟩
abbrev S1 : Shape := ⟨1, ![1]⟩
abbrev S131x128 : Shape := ⟨2, ![131, 128]⟩
abbrev S128 : Shape := ⟨1, ![128]⟩
abbrev S128x256 : Shape := ⟨2, ![128, 256]⟩
abbrev S256 : Shape := ⟨1, ![256]⟩
abbrev S_ : Shape := ⟨0, ![]⟩
abbrev S500000x1 : Shape := ⟨2, ![500000, 1]⟩
abbrev S500000x131 : Shape := ⟨2, ![500000, 131]⟩
abbrev S500000x64 : Shape := ⟨2, ![500000, 64]⟩
abbrev S1x64 : Shape := ⟨2, ![1, 64]⟩
abbrev S1x1 : Shape := ⟨2, ![1, 1]⟩
abbrev S50000x131 : Shape := ⟨2, ![50000, 131]⟩
abbrev S50000x128 : Shape := ⟨2, ![50000, 128]⟩
abbrev S1x128 : Shape := ⟨2, ![1, 128]⟩
abbrev S50000x256 : Shape := ⟨2, ![50000, 256]⟩
abbrev S1x256 : Shape := ⟨2, ![1, 256]⟩

abbrev nBuf : Space → Nat
  | .hbm => 62
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x3, .f32⟩
  | .hbm, ⟨2, _⟩ => ⟨S50000x3, .f32⟩
  | .hbm, ⟨3, _⟩ => ⟨S500000, .i32⟩
  | .hbm, ⟨4, _⟩ => ⟨S131x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S131x128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x3, .f32⟩
  | .hbm, ⟨21, _⟩ => ⟨S500000x3, .f32⟩
  | .hbm, ⟨22, _⟩ => ⟨S500000x131, .f32⟩
  | .hbm, ⟨23, _⟩ => ⟨S500000x64, .f32⟩
  | .hbm, ⟨24, _⟩ => ⟨S1x64, .f32⟩
  | .hbm, ⟨25, _⟩ => ⟨S500000x64, .f32⟩
  | .hbm, ⟨26, _⟩ => ⟨S500000x64, .f32⟩
  | .hbm, ⟨27, _⟩ => ⟨S_, .f32⟩
  | .hbm, ⟨28, _⟩ => ⟨S500000x64, .f32⟩
  | .hbm, ⟨29, _⟩ => ⟨S500000x64, .f32⟩
  | .hbm, ⟨30, _⟩ => ⟨S500000x1, .f32⟩
  | .hbm, ⟨31, _⟩ => ⟨S1x1, .f32⟩
  | .hbm, ⟨32, _⟩ => ⟨S500000x1, .f32⟩
  | .hbm, ⟨33, _⟩ => ⟨S500000x1, .f32⟩
  | .hbm, ⟨34, _⟩ => ⟨S500000x1, .f32⟩
  | .hbm, ⟨35, _⟩ => ⟨S500000x1, .f32⟩
  | .hbm, ⟨36, _⟩ => ⟨S_, .f32⟩
  | .hbm, ⟨37, _⟩ => ⟨S500000x1, .f32⟩
  | .hbm, ⟨38, _⟩ => ⟨S500000x1, .f32⟩
  | .hbm, ⟨39, _⟩ => ⟨S_, .f32⟩
  | .hbm, ⟨40, _⟩ => ⟨S500000x1, .f32⟩
  | .hbm, ⟨41, _⟩ => ⟨S500000x1, .f32⟩
  | .hbm, ⟨42, _⟩ => ⟨S500000x131, .f32⟩
  | .hbm, ⟨43, _⟩ => ⟨S500000x131, .f32⟩
  | .hbm, ⟨44, _⟩ => ⟨S_, .f32⟩
  | .hbm, ⟨45, _⟩ => ⟨S50000x131, .f32⟩
  | .hbm, ⟨46, _⟩ => ⟨S500000x1, .i32⟩
  | .hbm, ⟨47, _⟩ => ⟨S50000x131, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S50000x256, .f32⟩
  | .hbm, ⟨61, _⟩ => ⟨S50000x256, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_cst : Ref sig .tc := ⟨.hbm, 27, rfl⟩
abbrev main_call0_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_cst : Ref sig .tc := ⟨.hbm, 52, rfl⟩
abbrev main_call1_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call2_cst : Ref sig .tc := ⟨.hbm, 59, rfl⟩
abbrev main_call2_v0 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x3_S500000x131_d1 : Shape.Concatenates [S500000x128, S500000x3] S500000x131 1
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  bcast_S500000x1_S500000x131_0_1 : S500000x1.BroadcastsInDim S500000x131 (![0, 1] : Fin 2 → Fin S500000x131.rank)
  bcast_S_S50000x131 : S_.BroadcastsInDim S50000x131 (![] : Fin 0 → Fin S50000x131.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  gather_S50000x3_S500000x1_S500000x3_1_0_n_n_0_1_13_wf : GatherDims.WF S50000x3 S500000x1 S500000x3 [1] [0] [] [0] [] 1 ![1, 3]
  dot_S500000x131_S131x64_S500000x64_1_0_0_1_n_n_wf : DotDims.WF S500000x131 S131x64 S500000x64 [1] [0] [0] [1] [] []
  dot_S500000x64_S64x1_S500000x1_1_0_0_1_n_n_wf : DotDims.WF S500000x64 S64x1 S500000x1 [1] [0] [0] [1] [] []
  scatter_S50000x131_S500000x1_S500000x131_1_0_0_1_wf : ScatterDims.WF S50000x131 S500000x1 S500000x131 [1] [0] [0] 1
  dot_S50000x131_S131x128_S50000x128_1_0_0_1_n_n_wf : DotDims.WF S50000x131 S131x128 S50000x128 [1] [0] [0] [1] [] []
  dot_S50000x128_S128x256_S50000x256_1_0_0_1_n_n_wf : DotDims.WF S50000x128 S128x256 S50000x256 [1] [0] [0] [1] [] []

variable [Facts₀]

def gather_S50000x3_S500000x1_S500000x3_1_0_n_n_0_1_13 : GatherDims S50000x3 S500000x1 S500000x3 where
  offsetDims := [1]
  collapsedSliceDims := [0]
  operandBatchingDims := []
  startIndicesBatchingDims := []
  startIndexMap := [0]
  indexVectorDim := 1
  sliceSizes := ![1, 3]
  wf := gather_S50000x3_S500000x1_S500000x3_1_0_n_n_0_1_13_wf
def dot_S500000x131_S131x64_S500000x64_1_0_0_1_n_n : DotDims S500000x131 S131x64 S500000x64 where
  lhsContracting := [1]
  rhsContracting := [0]
  lhsNonContracting := [0]
  rhsNonContracting := [1]
  lhsBatch := []
  rhsBatch := []
  wf := dot_S500000x131_S131x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf
def scatter_S50000x131_S500000x1_S500000x131_1_0_0_1 : ScatterDims S50000x131 S500000x1 S500000x131 where
  updateWindowDims := [1]
  insertedWindowDims := [0]
  scatterDimsToOperandDims := [0]
  indexVectorDim := 1
  wf := scatter_S50000x131_S500000x1_S500000x131_1_0_0_1_wf
def dot_S50000x131_S131x128_S50000x128_1_0_0_1_n_n : DotDims S50000x131 S131x128 S50000x128 where
  lhsContracting := [1]
  rhsContracting := [0]
  lhsNonContracting := [0]
  rhsNonContracting := [1]
  lhsBatch := []
  rhsBatch := []
  wf := dot_S50000x131_S131x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.Spec.lean ====
/-
  The two programs' mathematics, one point (one row) at a time, on the extended reals.

  A point has 128 features `x` and a 3-vector `d` (its cluster's centre minus its own position). The gate is
  `σ(v · relu(Wᵀ[x; d] + b) + c)` with `σ t = 1 / (1 + e⁻ᵗ)`, and the point's gated row is `[x; d]` scaled by its gate.
  The product of the concatenated row `[x; d]` with the 131-row weight matrix is the product of `x` with its first 128
  rows plus the product of `d` with its last 3 rows: a sum over 131 indices split after the 128th, which needs only
  that addition of extended reals is associative (`sum_split`) — no finiteness.
  A cluster's output row is `relu(Uᵀ relu(Wᵀ a + b) + e)` of its aggregated row `a`.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals, and a rank-1 one. -/
abbrev Arr2 (n0 n1 : Nat) := (⟨2, ![n0, n1]⟩ : Shape).Idx → EReal
abbrev Arr1 (n : Nat) := (⟨1, ![n]⟩ : Shape).Idx → EReal

/-! ## The gate of one point -/

/-- Hidden unit `k` of the gate's first layer: `relu(∑ₗ xₗ·wxₗₖ + ∑ₗ dₗ·wdₗₖ + bₖ)`. -/
def gateHidden (x : Fin 128 → EReal) (d : Fin 3 → EReal) (wx : Fin 128 → Fin 64 → EReal) (wd : Fin 3 → Fin 64 → EReal)
    (b : Fin 64 → EReal) (k : Fin 64) : EReal :=
  max (((∑ l : Fin 128, x l * wx l k) + ∑ l : Fin 3, d l * wd l k) + b k) 0

/-- The gate: the logistic function of the second layer, `σ(∑ₖ hₖ·vₖ + c)`. -/
def gate (x : Fin 128 → EReal) (d : Fin 3 → EReal) (wx : Fin 128 → Fin 64 → EReal) (wd : Fin 3 → Fin 64 → EReal)
    (b : Fin 64 → EReal) (v : Fin 64 → EReal) (c : EReal) : EReal :=
  Ideal.logistic ((∑ k : Fin 64, gateHidden x d wx wd b k * v k) + c)

/-- Entry `j` of the concatenated row `[x; d]`. -/
def cat (x : Fin 128 → EReal) (d : Fin 3 → EReal) (j : Fin 131) : EReal :=
  if h : j.val < 128 then x ⟨j.val, h⟩ else d ⟨j.val - 128, by have := j.isLt; omega⟩

/-- Entry `j` of the gated row: `[x; d]ⱼ` times the point's gate. -/
def gatedRow (x : Fin 128 → EReal) (d : Fin 3 → EReal) (wx : Fin 128 → Fin 64 → EReal) (wd : Fin 3 → Fin 64 → EReal)
    (b : Fin 64 → EReal) (v : Fin 64 → EReal) (c : EReal) (j : Fin 131) : EReal :=
  cat x d j * gate x d wx wd b v c

theorem cat_lo (x : Fin 128 → EReal) (d : Fin 3 → EReal) (l : Fin 128) :
    cat x d ⟨l.val, Nat.lt_of_lt_of_le l.isLt (by decide)⟩ = x l := by
  unfold cat; rw [dif_pos l.isLt]

theorem cat_hi (x : Fin 128 → EReal) (d : Fin 3 → EReal) (l : Fin 3) :
    cat x d ⟨128 + l.val, by have := l.isLt; omega⟩ = d l := by
  unfold cat
  rw [dif_neg (by show ¬ 128 + l.val < 128; omega)]
  exact congrArg d (Fin.ext (by show 128 + l.val - 128 = l.val; omega))

/-- A sum over 131 indices is the sum over the first 128 plus the sum over the last 3. -/
theorem sum_split (f : Fin 131 → EReal) :
    ∑ l : Fin 131, f l
      = (∑ l : Fin 128, f ⟨l.val, Nat.lt_of_lt_of_le l.isLt (by decide)⟩)
        + ∑ l : Fin 3, f ⟨128 + l.val, by have := l.isLt; omega⟩ :=
  Fin.sum_univ_add (a := 128) (b := 3) f

/-- The concatenated row against a 131-row weight column: the features against its first 128 rows plus the offset
    against its last 3. -/
theorem cat_dot (x : Fin 128 → EReal) (d : Fin 3 → EReal) (w : Fin 131 → EReal) :
    ∑ l : Fin 131, cat x d l * w l
      = (∑ l : Fin 128, x l * w ⟨l.val, Nat.lt_of_lt_of_le l.isLt (by decide)⟩)
        + ∑ l : Fin 3, d l * w ⟨128 + l.val, by have := l.isLt; omega⟩ := by
  rw [sum_split]
  refine congrArg₂ (· + ·) (Finset.sum_congr rfl fun l _ => ?_) (Finset.sum_congr rfl fun l _ => ?_)
  · rw [cat_lo]
  · rw [cat_hi]

/-! ## The output layers of one cluster -/

/-- Hidden unit `k`: `relu(∑ₗ aₗ·wₗₖ + bₖ)`. -/
def mlpHidden (a : Fin 131 → EReal) (w : Fin 131 → Fin 128 → EReal) (b : Fin 128 → EReal) (k : Fin 128) : EReal :=
  max ((∑ l : Fin 131, a l * w l k) + b k) 0

/-- Output `j`: `relu(∑ₖ hₖ·uₖⱼ + eⱼ)`. -/
def mlpRow (a : Fin 131 → EReal) (w : Fin 131 → Fin 128 → EReal) (b : Fin 128 → EReal) (u : Fin 128 → Fin 256 → EReal)
    (e : Fin 256 → EReal) (j : Fin 256) : EReal :=
  max ((∑ k : Fin 128, mlpHidden a w b k * u k j) + e j) 0

/-! ## Whole arrays, any number of rows -/

/-- The gated rows of `R` points, the first layer's weights given as their feature rows `wx` and offset rows `wd`. -/
def gated {R : Nat} (feat : Arr2 R 128) (pts cen : Arr2 R 3) (wx : Arr2 128 64) (wd : Arr2 3 64) (b : Arr1 64)
    (v : Arr2 64 1) (c : Arr1 1) : Arr2 R 131 :=
  fun i => gatedRow (fun l => feat (ix2 (i 0) l)) (fun l => cen (ix2 (i 0) l) - pts (ix2 (i 0) l))
    (fun l k => wx (ix2 l k)) (fun l k => wd (ix2 l k)) (fun k => b (ix1 k)) (fun k => v (ix2 k 0)) (c (ix1 0)) (i 1)

/-- The same with the first layer's weights as ONE 131-row matrix: its first 128 rows meet the features, its last 3
    the offset. -/
def gatedW {R : Nat} (feat : Arr2 R 128) (pts cen : Arr2 R 3) (w : Arr2 131 64) (b : Arr1 64)
    (v : Arr2 64 1) (c : Arr1 1) : Arr2 R 131 :=
  fun i => gatedRow (fun l => feat (ix2 (i 0) l)) (fun l => cen (ix2 (i 0) l) - pts (ix2 (i 0) l))
    (fun l k => w (ix2 ⟨l.val, Nat.lt_of_lt_of_le l.isLt (by decide)⟩ k))
    (fun l k => w (ix2 ⟨128 + l.val, by have := l.isLt; omega⟩ k))
    (fun k => b (ix1 k)) (fun k => v (ix2 k 0)) (c (ix1 0)) (i 1)

/-- The output rows of `R` clusters. -/
def mlp {R : Nat} (agg : Arr2 R 131) (w : Arr2 131 128) (b : Arr1 128) (u : Arr2 128 256) (e : Arr1 256) : Arr2 R 256 :=
  fun i => mlpRow (fun l => agg (ix2 (i 0) l)) (fun l k => w (ix2 l k)) (fun k => b (ix1 k)) (fun k j => u (ix2 k j))
    (fun j => e (ix1 j)) (i 1)

/-- A cluster's output row depends on the aggregated array only through that cluster's row. -/
theorem mlp_congr_row {R R' : Nat} (a : Arr2 R 131) (a' : Arr2 R' 131) (w : Arr2 131 128) (b : Arr1 128) (u : Arr2 128 256)
    (e : Arr1 256) (p : Fin R) (r : Fin R') (q : Fin 256) (h : ∀ l : Fin 131, a (ix2 p l) = a' (ix2 r l)) :
    mlp a w b u e (ix2 p q) = mlp a' w b u e (ix2 r q) := by
  show mlpRow (fun l => a (ix2 p l)) _ _ _ _ q = mlpRow (fun l => a' (ix2 r l)) _ _ _ _ q
  rw [funext h]

/-- A point's gated row depends on the three per-point arrays only through that point's rows. -/
theorem gated_congr_row {R R' : Nat} (feat : Arr2 R 128) (pts cen : Arr2 R 3) (feat' : Arr2 R' 128) (pts' cen' : Arr2 R' 3)
    (wx : Arr2 128 64) (wd : Arr2 3 64) (b : Arr1 64) (v : Arr2 64 1) (c : Arr1 1) (p : Fin R) (r : Fin R') (q : Fin 131)
    (hf : ∀ l : Fin 128, feat (ix2 p l) = feat' (ix2 r l)) (hp : ∀ l : Fin 3, pts (ix2 p l) = pts' (ix2 r l))
    (hc : ∀ l : Fin 3, cen (ix2 p l) = cen' (ix2 r l)) :
    gated feat pts cen wx wd b v c (ix2 p q) = gated feat' pts' cen' wx wd b v c (ix2 r q) := by
  show gatedRow (fun l => feat (ix2 p l)) (fun l => cen (ix2 p l) - pts (ix2 p l)) _ _ _ _ _ q
    = gatedRow (fun l => feat' (ix2 r l)) (fun l => cen' (ix2 r l) - pts' (ix2 r l)) _ _ _ _ _ q
  have hd : (fun l => cen (ix2 p l) - pts (ix2 p l)) = fun l => cen' (ix2 r l) - pts' (ix2 r l) :=
    funext fun l => by rw [hp l, hc l]
  rw [funext hf, hd]

end Cert.Spec

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.Region0.lean ====
/-
  The gated rows as the first kernel computes them. One grid point handles 10000 points of the cloud. From its blocks of
  features `X`, positions `P` and gathered centres `C` it forms the offsets `D = C − P`, the hidden layer
  `relu(X Wx + D Wd + b)` — the two products summed, which is the product of the concatenated rows `[X; D]` with the
  whole weight matrix —, the gate `σ(H v + c)` of each point, and stores `X` scaled by the gates in the first 128 columns
  of its output block and `D` scaled by them in the last 3: together the rows `[X; D]` scaled by their gates.
  Row `p` of point `t`'s blocks is row `10000·t + p` of the arrays, the fifty points' blocks tile the 500000 rows, and
  the weights and biases are whole at every point; so the output array is the gated rows of the whole arrays.
-/
import proofs.«114259_j46961172414968_1_alg».proof.Proof.Gen.KernelIdeal.Frame
import proofs.«114259_j46961172414968_1_alg».proof.Proof.Spec
import proofs.«114259_j46961172414968_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibPlainDot

theorem hz : (![0, 0] : Fin 2 → Nat) = fun _ => 0 := funext fun a => by fin_cases a <;> rfl
theorem hz1 : (![0] : Fin 1 → Nat) = fun _ => 0 := funext fun a => by fin_cases a <;> rfl

/-! ## The three products' dimension numbers, coordinate by coordinate -/

theorem dx_l0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem dx_l1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem dx_r0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem dx_r1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem dd_l0 (i : S10000x64.Idx) (q : dot_S10000x3_S3x64_S10000x64_1_0_0_1_n_n.contr.Idx) : (dot_S10000x3_S3x64_S10000x64_1_0_0_1_n_n.lhsIdx i q 0).val = (i 0).val := by
  unfold DotDims.lhsIdx
  rw [dif_neg (show ¬(0 : Fin S10000x3.rank) ∈ dot_S10000x3_S3x64_S10000x64_1_0_0_1_n_n.lhsBatch by decide), dif_pos (show (0 : Fin S10000x3.rank) ∈ dot_S10000x3_S3x64_S10000x64_1_0_0_1_n_n.lhsNonContracting by decide)]
  rfl
theorem dd_l1 (i : S10000x64.Idx) (q : dot_S10000x3_S3x64_S10000x64_1_0_0_1_n_n.contr.Idx) : (dot_S10000x3_S3x64_S10000x64_1_0_0_1_n_n.lhsIdx i q 1).val = (q ⟨0, by decide⟩).val :=
  dot_S10000x3_S3x64_S10000x64_1_0_0_1_n_n.lhsIdx_val_of_single rfl i q
theorem dd_r0 (i : S10000x64.Idx) (q : dot_S10000x3_S3x64_S10000x64_1_0_0_1_n_n.contr.Idx) : (dot_S10000x3_S3x64_S10000x64_1_0_0_1_n_n.rhsIdx i q 0).val = (q ⟨0, by decide⟩).val :=
  dot_S10000x3_S3x64_S10000x64_1_0_0_1_n_n.rhsIdx_val_of_single rfl i q
theorem dd_r1 (i : S10000x64.Idx) (q : dot_S10000x3_S3x64_S10000x64_1_0_0_1_n_n.contr.Idx) : (dot_S10000x3_S3x64_S10000x64_1_0_0_1_n_n.rhsIdx i q 1).val = (i 1).val := by
  unfold DotDims.rhsIdx
  rw [dif_neg (show ¬(1 : Fin S3x64.rank) ∈ dot_S10000x3_S3x64_S10000x64_1_0_0_1_n_n.rhsBatch by decide), dif_pos (show (1 : Fin S3x64.rank) ∈ dot_S10000x3_S3x64_S10000x64_1_0_0_1_n_n.rhsNonContracting by decide)]
  rfl

theorem dv_l0 (i : S10000x1.Idx) (q : dot_S10000x64_S64x1_S10000x1_1_0_0_1_n_n.contr.Idx) : (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem dv_l1 (i : S10000x1.Idx) (q : dot_S10000x64_S64x1_S10000x1_1_0_0_1_n_n.contr.Idx) : (dot_S10000x64_S64x1_S10000x1_1_0_0_1_n_n.lhsIdx i q 1).val = (q ⟨0, by decide⟩).val :=
  dot_S10000x64_S64x1_S10000x1_1_0_0_1_n_n.lhsIdx_val_of_single rfl i q
theorem dv_r0 (i : S10000x1.Idx) (q : dot_S10000x64_S64x1_S10000x1_1_0_0_1_n_n.contr.Idx) : (dot_S10000x64_S64x1_S10000x1_1_0_0_1_n_n.rhsIdx i q 0).val = (q ⟨0, by decide⟩).val :=
  dot_S10000x64_S64x1_S10000x1_1_0_0_1_n_n.rhsIdx_val_of_single rfl i q
theorem dv_r1 (i : S10000x1.Idx) (q : dot_S10000x64_S64x1_S10000x1_1_0_0_1_n_n.contr.Idx) : (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- The features' product at `(p, k)`: `∑ₗ X(p,l)·Wx(l,k)`. -/
theorem mm_x (l : FVec Ideal S10000x128 .f32) (r : FVec Ideal S128x64 .f32) (p : Fin 10000) (k : Fin 64) :
    matmul (F := Ideal) dot_S10000x128_S128x64_S10000x64_1_0_0_1_n_n none l r (constant S10000x64 .f32 0x00000000#32) (ix2 p k)
      = ∑ x : Fin 128, l (ix2 p x) * r (ix2 x k) :=
  matmul_plain_apply dot_S10000x128_S128x64_S10000x64_1_0_0_1_n_n rfl rfl dx_l0 dx_l1 dx_r0 dx_r1 none l r p k

/-- The offsets' product at `(p, k)`: `∑ₗ D(p,l)·Wd(l,k)`. -/
theorem mm_d (l : FVec Ideal S10000x3 .f32) (r : FVec Ideal S3x64 .f32) (p : Fin 10000) (k : Fin 64) :
    matmul (F := Ideal) dot_S10000x3_S3x64_S10000x64_1_0_0_1_n_n none l r (constant S10000x64 .f32 0x00000000#32) (ix2 p k)
      = ∑ x : Fin 3, l (ix2 p x) * r (ix2 x k) :=
  matmul_plain_apply dot_S10000x3_S3x64_S10000x64_1_0_0_1_n_n rfl rfl dd_l0 dd_l1 dd_r0 dd_r1 none l r p k

/-- The second layer's product at `(p, 0)`: `∑ₖ H(p,k)·v(k)`. -/
theorem mm_v (l : FVec Ideal S10000x64 .f32) (r : FVec Ideal S64x1 .f32) (p : Fin 10000) (j : Fin 1) :
    matmul (F := Ideal) dot_S10000x64_S64x1_S10000x1_1_0_0_1_n_n none l r (constant S10000x1 .f32 0x00000000#32) (ix2 p j)
      = ∑ x : Fin 64, l (ix2 p x) * r (ix2 x j) :=
  matmul_plain_apply dot_S10000x64_S64x1_S10000x1_1_0_0_1_n_n rfl rfl dv_l0 dv_l1 dv_r0 dv_r1 none l r p j

/-! ## The body's values at one entry -/

/-- The offset at `(p, l)`: centre minus position. -/
theorem diff_apply (v1 v3 : Vec Ideal S10000x3 .f32) (p : Fin 10000) (l : Fin 3) :
    k0_pay1 (F := Ideal) v1 v3 (ix2 p l) = v1 (ix2 p l) - v3 (ix2 p l) := by
  unfold k0_pay1
  rw [subf_apply, shapeCast_self]

/-- The gate of row `p`. -/
theorem gate_apply (v0 : Vec Ideal S10000x128 .f32) (v1 v3 : Vec Ideal S10000x3 .f32) (v5 : Vec Ideal S128x64 .f32) (v8 : Vec Ideal S3x64 .f32)
    (v12 : Vec Ideal S64 .f32) (v18 : Vec Ideal S64x1 .f32) (v20 : Vec Ideal S1 .f32) (p : Fin 10000) (z : Fin 1) :
    k0_pay2 (F := Ideal) v0 v1 v3 v5 v8 v12 v18 v20 (ix2 p z)
      = Spec.gate (fun l => v0 (ix2 p l)) (fun l => v1 (ix2 p l) - v3 (ix2 p l)) (fun l k => v5 (ix2 l k))
          (fun l k => v8 (ix2 l k)) (fun k => v12 (ix1 k)) (fun k => v18 (ix2 k 0)) (v20 (ix1 0)) := by
  obtain rfl : z = 0 := Subsingleton.elim _ _
  unfold k0_pay2
  show Ideal.logistic _ = _
  unfold Spec.gate
  refine congrArg Ideal.logistic ?_
  rw [addf_apply, mm_v, bias_row_apply]
  refine congrArg (· + v20 (ix1 0)) (Finset.sum_congr rfl fun k _ => ?_)
  refine congrArg (· * v18 (ix2 k 0)) ?_
  rw [maximumf_apply, addf_apply, addf_apply, broadcast_apply, mm_x, mm_d, bias_row_apply, scalar_zero, shapeCast_self,
    shapeCast_self]
  unfold Spec.gateHidden
  refine congrArg (fun s => max (((∑ l : Fin 128, v0 (ix2 p l) * v5 (ix2 l k)) + s) + v12 (ix1 k)) 0)
    (Finset.sum_congr rfl fun l _ => ?_)
  rw [diff_apply]

/-- The first store's value at `(p, q)`: entry `q` of row `p`'s gated row. -/
theorem pay3_apply (v0 : Vec Ideal S10000x128 .f32) (v1 v3 : Vec Ideal S10000x3 .f32) (v5 : Vec Ideal S128x64 .f32) (v8 : Vec Ideal S3x64 .f32)
    (v12 : Vec Ideal S64 .f32) (v18 : Vec Ideal S64x1 .f32) (v20 : Vec Ideal S1 .f32) (p : Fin 10000) (q : Fin 128) :
    k0_pay3 (F := Ideal) v0 v1 v3 v5 v8 v12 v18 v20 (ix2 p q)
      = Spec.gated (R := 10000) v0 v3 v1 v5 v8 v12 v18 v20 (ix2 p ⟨q.val, Nat.lt_of_lt_of_le q.isLt (by decide)⟩) := by
  unfold k0_pay3
  rw [mulf_apply, broadcastTo_a1_ab_apply, gate_apply]
  show _ = Spec.gatedRow _ _ _ _ _ _ _ (⟨q.val, Nat.lt_of_lt_of_le q.isLt (by decide)⟩ : Fin 131)
  unfold Spec.gatedRow
  rw [Spec.cat_lo]

/-- The second store's value at `(p, q)`: entry `128 + q` of row `p`'s gated row. -/
theorem pay4_apply (v0 : Vec Ideal S10000x128 .f32) (v1 v3 : Vec Ideal S10000x3 .f32) (v5 : Vec Ideal S128x64 .f32) (v8 : Vec Ideal S3x64 .f32)
    (v12 : Vec Ideal S64 .f32) (v18 : Vec Ideal S64x1 .f32) (v20 : Vec Ideal S1 .f32) (p : Fin 10000) (q : Fin 3) :
    k0_pay4 (F := Ideal) v0 v1 v3 v5 v8 v12 v18 v20 (ix2 p q)
      = Spec.gated (R := 10000) v0 v3 v1 v5 v8 v12 v18 v20 (ix2 p ⟨128 + q.val, by have := q.isLt; omega⟩) := by
  unfold k0_pay4
  rw [mulf_apply, broadcastTo_a1_ab_apply, gate_apply, diff_apply]
  show _ = Spec.gatedRow _ _ _ _ _ _ _ (⟨128 + q.val, by have := q.isLt; omega⟩ : Fin 131)
  unfold Spec.gatedRow
  rw [Spec.cat_hi]

/-- What the run leaves in the output's buffer: the gated rows of the input blocks. -/
theorem out_eq (c : Dev nD) (i : grid0.Coords) (arg1 : Memref sig .tc .vmem S10000x128 .f32) (harg1 : arg1.IsWhole) (arg2 : Memref sig .tc .vmem S10000x3 .f32) (harg2 : arg2.IsWhole) (arg3 : Memref sig .tc .vmem S10000x3 .f32) (harg3 : arg3.IsWhole) (arg4 : Memref sig .tc .vmem S128x64 .f32) (harg4 : arg4.IsWhole) (arg5 : Memref sig .tc .vmem S3x64 .f32) (harg5 : arg5.IsWhole) (arg6 : Memref sig .tc .vmem S64 .f32) (harg6 : arg6.IsWhole) (arg7 : Memref sig .tc .vmem S64x1 .f32) (harg7 : arg7.IsWhole) (arg8 : Memref sig .tc .vmem S1 .f32) (harg8 : arg8.IsWhole) (arg9 : Memref sig .tc .vmem S10000x131 .f32) (harg9 : arg9.IsWhole)
    (x0 : Vec Ideal S10000x128 .f32) (x1 : Vec Ideal S10000x3 .f32) (x2 : Vec Ideal S10000x3 .f32) (x3 : Vec Ideal S128x64 .f32) (x4 : Vec Ideal S3x64 .f32) (x5 : Vec Ideal S64 .f32) (x6 : Vec Ideal S64x1 .f32) (x7 : Vec Ideal S1 .f32) :
    out0_A_8 (F := Ideal) c i arg1 harg1 arg2 harg2 arg3 harg3 arg4 harg4 arg5 harg5 arg6 harg6 arg7 harg7 arg8 harg8 arg9 harg9 x0 x1 x2 x3 x4 x5 x6 x7
      = Spec.gated (R := 10000) x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  unfold kernelRun0_A
  dsimp only
  sl_unfold_words
  simp only [View.readAt_eq_ld, harg1.read_unread, harg2.read_unread, harg3.read_unread, harg4.read_unread, harg5.read_unread,
    harg6.read_unread, harg7.read_unread, harg8.read_unread,
    View.ld_unit_zero (S := S10000x128) hz, View.ld_unit_zero (S := S10000x3) hz, View.ld_unit_zero (S := S128x64) hz,
    View.ld_unit_zero (S := S3x64) hz, View.ld_unit_zero (S := S64) hz1, View.ld_unit_zero (S := S64x1) hz,
    View.ld_unit_zero (S := S1) hz1]
  funext y
  refine View.canon_apply_of_pieces (Val := Elt Ideal) (S := S10000x131) (e := .f32)
    (Spec.gated (R := 10000) x0 x1 x2 x3 x4 x5 x6 x7) _ ?_ y ?_
  · intro pc hpc x
    rcases List.mem_cons.mp hpc with rfl | hpc
    · obtain ⟨p, q, rfl⟩ : ∃ (p : Fin 10000) (q : Fin 3), x = ix2 p q := ⟨x 0, x 1, eq_ix2 x⟩
      have he : (Rect.unit (s := S10000x131) ![0, 128] S10000x3.size inb_S10000x131_S10000x3_0_128).emb (ix2 p q)
          = (ix2 p (⟨128 + q.val, by have := q.isLt; omega⟩ : Fin 131) : S10000x131.Idx) := funext fun a => Fin.ext (by
        match a with
        | ⟨0, _⟩ => show 0 + 1 * p.val = p.val; omega
        | ⟨1, _⟩ => show 128 + 1 * q.val = 128 + q.val; omega)
      show k0_pay4 x0 x2 x1 x3 x4 x5 x6 x7 (ix2 p q) = _
      rw [he]
      exact pay4_apply x0 x2 x1 x3 x4 x5 x6 x7 p q
    · obtain rfl := List.mem_singleton.mp hpc
      obtain ⟨p, q, rfl⟩ : ∃ (p : Fin 10000) (q : Fin 128), x = ix2 p q := ⟨x 0, x 1, eq_ix2 x⟩
      have he : (Rect.unit (s := S10000x131) ![0, 0] S10000x128.size inb_S10000x131_S10000x128_0_0).emb (ix2 p q)
          = (ix2 p (⟨q.val, Nat.lt_of_lt_of_le q.isLt (by decide)⟩ : Fin 131) : S10000x131.Idx) := funext fun a => Fin.ext (by
        match a with
        | ⟨0, _⟩ => show 0 + 1 * p.val = p.val; omega
        | ⟨1, _⟩ => show 0 + 1 * q.val = q.val; omega)
      show k0_pay3 x0 x2 x1 x3 x4 x5 x6 x7 (ix2 p q) = _
      rw [he]
      exact pay3_apply x0 x2 x1 x3 x4 x5 x6 x7 p q
  · have hy0 : (y 0).val < 10000 := (y 0).isLt
    have hy1 : (y 1).val < 131 := (y 1).isLt
    by_cases h : (y 1).val < 128
    · refine ⟨_, List.mem_cons_of_mem _ (List.mem_singleton_self _), ?_⟩
      rw [Rect.mem_set_unit]
      intro a
      match a with
      | ⟨0, _⟩ => show 0 ≤ (y 0).val ∧ (y 0).val < 0 + 10000; omega
      | ⟨1, _⟩ => show 0 ≤ (y 1).val ∧ (y 1).val < 0 + 128; omega
    · refine ⟨_, List.mem_cons_self, ?_⟩
      rw [Rect.mem_set_unit]
      intro a
      match a with
      | ⟨0, _⟩ => show 0 ≤ (y 0).val ∧ (y 0).val < 0 + 10000; omega
      | ⟨1, _⟩ => show 128 ≤ (y 1).val ∧ (y 1).val < 128 + 3; omega

/-! ## From blocks to the array -/

section Blocks

variable (V : (c : Dev nD) → (b : Ref sig .tc) → Buf (Elt Ideal) ((c : Thread nD τ).loc b))

/-- The printed index maps at a grid point: the three per-point arrays' and the output's blocks move with the point along
    the rows, the weights' and biases' stay. -/
structure IdxFacts (t : Fin cfg0.N) : Prop where
  f0 : win0_0.index t (0 : Fin 2) = t.val
  f1 : win0_0.index t (1 : Fin 2) = 0
  p0 : win0_1.index t (0 : Fin 2) = t.val
  p1 : win0_1.index t (1 : Fin 2) = 0
  c0 : win0_2.index t (0 : Fin 2) = t.val
  c1 : win0_2.index t (1 : Fin 2) = 0
  wx0 : win0_3.index t (0 : Fin 2) = 0
  wx1 : win0_3.index t (1 : Fin 2) = 0
  wd0 : win0_4.index t (0 : Fin 2) = 0
  wd1 : win0_4.index t (1 : Fin 2) = 0
  b0 : win0_5.index t (0 : Fin 1) = 0
  v0 : win0_6.index t (0 : Fin 2) = 0
  v1 : win0_6.index t (1 : Fin 2) = 0
  k0 : win0_7.index t (0 : Fin 1) = 0
  o0 : win0_8.index t (0 : Fin 2) = t.val
  o1 : win0_8.index t (1 : Fin 2) = 0

theorem idx_facts : ∀ t : Fin cfg0.N, IdxFacts t :=
  fun t => by
    have h : ∀ t : Fin grid0.N, (win0_0.index t (0 : Fin 2) = t.val ∧ win0_0.index t (1 : Fin 2) = 0)
        ∧ (win0_1.index t (0 : Fin 2) = t.val ∧ win0_1.index t (1 : Fin 2) = 0)
        ∧ (win0_2.index t (0 : Fin 2) = t.val ∧ win0_2.index t (1 : Fin 2) = 0)
        ∧ (win0_3.index t (0 : Fin 2) = 0 ∧ win0_3.index t (1 : Fin 2) = 0)
        ∧ (win0_4.index t (0 : Fin 2) = 0 ∧ win0_4.index t (1 : Fin 2) = 0)
        ∧ win0_5.index t (0 : Fin 1) = 0
        ∧ (win0_6.index t (0 : Fin 2) = 0 ∧ win0_6.index t (1 : Fin 2) = 0)
        ∧ win0_7.index t (0 : Fin 1) = 0
        ∧ (win0_8.index t (0 : Fin 2) = t.val ∧ win0_8.index t (1 : Fin 2) = 0) := by decide +kernel
    obtain ⟨⟨a0, a1⟩, ⟨b0, b1⟩, ⟨c0, c1⟩, ⟨d0, d1⟩, ⟨e0, e1⟩, f0, ⟨g0, g1⟩, h0, ⟨i0, i1⟩⟩ := h t
    exact ⟨a0, a1, b0, b1, c0, c1, d0, d1, e0, e1, f0, g0, g1, h0, i0, i1⟩

/-- Row `p` of point `t`'s block of features is row `10000·t + p` of the array. -/
theorem blk0_apply (c : Dev nD) (t : Fin cfg0.N) (p : Fin 10000) (l : Fin 128) :
    iblk0 V c 0 t (ix2 p l)
      = (V c main_arg0 : Spec.Arr2 500000 128) (ix2 ⟨t.val * 10000 + p.val, by have ht : t.val < 50 := t.isLt; have := p.isLt; show _ < 500000; omega⟩ l) := by
  have E := idx_facts t
  show V c main_arg0 (((cfg0.win 0).blk t).view.emb (ix2 p l)) = _
  refine congrArg (V c main_arg0) (funext fun a => Fin.ext ?_)
  match a with
  | ⟨0, _⟩ => show win0_0.index t (0 : Fin 2) * 10000 + 1 * p.val = t.val * 10000 + p.val; have := E.f0; omega
  | ⟨1, _⟩ => show win0_0.index t (1 : Fin 2) * 128 + 1 * l.val = l.val; have := E.f1; omega

/-- The same for the positions. -/
theorem blk1_apply (c : Dev nD) (t : Fin cfg0.N) (p : Fin 10000) (l : Fin 3) :
    iblk0 V c 1 t (ix2 p l)
      = (V c main_arg1 : Spec.Arr2 500000 3) (ix2 ⟨t.val * 10000 + p.val, by have ht : t.val < 50 := t.isLt; have := p.isLt; show _ < 500000; omega⟩ l) := by
  have E := idx_facts t
  show V c main_arg1 (((cfg0.win 1).blk t).view.emb (ix2 p l)) = _
  refine congrArg (V c main_arg1) (funext fun a => Fin.ext ?_)
  match a with
  | ⟨0, _⟩ => show win0_1.index t (0 : Fin 2) * 10000 + 1 * p.val = t.val * 10000 + p.val; have := E.p0; omega
  | ⟨1, _⟩ => show win0_1.index t (1 : Fin 2) * 3 + 1 * l.val = l.val; have := E.p1; omega

/-- The same for the gathered centres. -/
theorem blk2_apply (c : Dev nD) (t : Fin cfg0.N) (p : Fin 10000) (l : Fin 3) :
    iblk0 V c 2 t (ix2 p l)
      = (V c main_v6 : Spec.Arr2 500000 3) (ix2 ⟨t.val * 10000 + p.val, by have ht : t.val < 50 := t.isLt; have := p.isLt; show _ < 500000; omega⟩ l) := by
  have E := idx_facts t
  show V c main_v6 (((cfg0.win 2).blk t).view.emb (ix2 p l)) = _
  refine congrArg (V c main_v6) (funext fun a => Fin.ext ?_)
  match a with
  | ⟨0, _⟩ => show win0_2.index t (0 : Fin 2) * 10000 + 1 * p.val = t.val * 10000 + p.val; have := E.c0; omega
  | ⟨1, _⟩ => show win0_2.index t (1 : Fin 2) * 3 + 1 * l.val = l.val; have := E.c1; omega

/-- The features' weight rows are whole at every point. -/
theorem blk3_eq (c : Dev nD) (t : Fin cfg0.N) : iblk0 V c 3 t = (V c main_v7 : Spec.Arr2 128 64) := by
  have E := idx_facts t
  funext y
  show V c main_v7 (((cfg0.win 3).blk t).view.emb y) = V c main_v7 y
  refine congrArg (V c main_v7) (funext fun a => Fin.ext ?_)
  match a with
  | ⟨0, _⟩ => show win0_3.index t (0 : Fin 2) * 128 + 1 * (y 0).val = (y 0).val; have := E.wx0; omega
  | ⟨1, _⟩ => show win0_3.index t (1 : Fin 2) * 64 + 1 * (y 1).val = (y 1).val; have := E.wx1; omega

/-- So are the offsets' weight rows. -/
theorem blk4_eq (c : Dev nD) (t : Fin cfg0.N) : iblk0 V c 4 t = (V c main_v8 : Spec.Arr2 3 64) := by
  have E := idx_facts t
  funext y
  show V c main_v8 (((cfg0.win 4).blk t).view.emb y) = V c main_v8 y
  refine congrArg (V c main_v8) (funext fun a => Fin.ext ?_)
  match a with
  | ⟨0, _⟩ => show win0_4.index t (0 : Fin 2) * 3 + 1 * (y 0).val = (y 0).val; have := E.wd0; omega
  | ⟨1, _⟩ => show win0_4.index t (1 : Fin 2) * 64 + 1 * (y 1).val = (y 1).val; have := E.wd1; omega

/-- So is the first bias. -/
theorem blk5_eq (c : Dev nD) (t : Fin cfg0.N) : iblk0 V c 5 t = (V c main_arg5 : Spec.Arr1 64) := by
  have E := idx_facts t
  funext y
  show V c main_arg5 (((cfg0.win 5).blk t).view.emb y) = V c main_arg5 y
  refine congrArg (V c main_arg5) (funext fun a => Fin.ext ?_)
  match a with
  | ⟨0, _⟩ => show win0_5.index t (0 : Fin 1) * 64 + 1 * (y 0).val = (y 0).val; have := E.b0; omega

/-- So is the second layer's weight column. -/
theorem blk6_eq (c : Dev nD) (t : Fin cfg0.N) : iblk0 V c 6 t = (V c main_arg6 : Spec.Arr2 64 1) := by
  have E := idx_facts t
  funext y
  show V c main_arg6 (((cfg0.win 6).blk t).view.emb y) = V c main_arg6 y
  refine congrArg (V c main_arg6) (funext fun a => Fin.ext ?_)
  match a with
  | ⟨0, _⟩ => show win0_6.index t (0 : Fin 2) * 64 + 1 * (y 0).val = (y 0).val; have := E.v0; omega
  | ⟨1, _⟩ => show win0_6.index t (1 : Fin 2) * 1 + 1 * (y 1).val = (y 1).val; have := E.v1; omega

/-- And the second bias. -/
theorem blk7_eq (c : Dev nD) (t : Fin cfg0.N) : iblk0 V c 7 t = (V c main_arg7 : Spec.Arr1 1) := by
  have E := idx_facts t
  funext y
  show V c main_arg7 (((cfg0.win 7).blk t).view.emb y) = V c main_arg7 y
  refine congrArg (V c main_arg7) (funext fun a => Fin.ext ?_)
  match a with
  | ⟨0, _⟩ => show win0_7.index t (0 : Fin 1) * 1 + 1 * (y 0).val = (y 0).val; have := E.k0; omega

/-- The gated rows of the arrays as the region finds them. -/
abbrev result (c : Dev nD) : Spec.Arr2 500000 131 :=
  Spec.gated (V c main_arg0) (V c main_arg1) (V c main_v6) (V c main_v7) (V c main_v8) (V c main_arg5) (V c main_arg6)
    (V c main_arg7)

/-- What point `t` writes back is block `t` of `result`. -/
theorem flushed_eq (c : Dev nD) (t : Fin cfg0.N) :
    (dat0 V c).flushed 8 t = ((cfg0.win 8).blk t).view.read (Elt Ideal) (result V c) := by
  show (cfg0.win 8).cut (grid0.coords t) ((dat0 V c).after 8 t) = _
  rw [after0_8]
  unfold outsAt0
  rw [out_eq, blk3_eq, blk4_eq, blk5_eq, blk6_eq, blk7_eq]
  have E := idx_facts t
  funext j
  obtain ⟨p, q, rfl⟩ : ∃ (p : Fin 10000) (q : Fin 131), j = ix2 p q := ⟨j 0, j 1, eq_ix2 j⟩
  have he : ((cfg0.win 8).blk t).view.emb (ix2 p q)
      = (ix2 (⟨t.val * 10000 + p.val, by have ht : t.val < 50 := t.isLt; have := p.isLt; show _ < 500000; omega⟩ : Fin 500000) q : (⟨2, ![500000, 131]⟩ : Shape).Idx) :=
    funext fun a => Fin.ext (by
      match a with
      | ⟨0, _⟩ => show win0_8.index t (0 : Fin 2) * 10000 + 1 * p.val = t.val * 10000 + p.val; have := E.o0; omega
      | ⟨1, _⟩ => show win0_8.index t (1 : Fin 2) * 131 + 1 * q.val = q.val; have := E.o1; omega)
  show Spec.gated (iblk0 V c 0 t) (iblk0 V c 1 t) (iblk0 V c 2 t) _ _ _ _ _ (ix2 p q) = result V c (((cfg0.win 8).blk t).view.emb (ix2 p q))
  rw [he]
  exact Spec.gated_congr_row _ _ _ _ _ _ _ _ _ _ _ p _ q (fun l => blk0_apply V c t p l) (fun l => blk1_apply V c t p l)
    (fun l => blk2_apply V c t p l)

/-- An index of the output array is in point `t`'s block iff its row is among the point's 10000. -/
theorem mem_blk (t : Fin cfg0.N) (i : S500000x131.Idx) :
    i ∈ ((cfg0.win 8).blk t).view.set ↔ ∀ a : Fin 2, win0_8.index t a * S10000x131.size a ≤ (i a).val ∧ (i a).val < win0_8.index t a * S10000x131.size a + S10000x131.size a := by
  show i ∈ ((View.whole main_v9).slice (win0_8.rect t)).set ↔ _
  rw [View.set_slice_whole, Rect.mem_set_unit]
  exact Iff.rfl

/-- Every index of the output array is in the block of the point its row falls to. -/
theorem cover (i : S500000x131.Idx) : ∃ t : Fin cfg0.N, (cfg0.win 8).flush t = true ∧ i ∈ ((cfg0.win 8).blk t).view.set := by
  have hi0 : (i 0).val < 500000 := (i 0).isLt
  have hi1 : (i 1).val < 131 := (i 1).isLt
  refine ⟨⟨(i 0).val / 10000, by show _ < 50; omega⟩, flush0_8 _, ?_⟩
  rw [mem_blk]
  have E := idx_facts ⟨(i 0).val / 10000, by show _ < 50; omega⟩
  intro a
  match a with
  | ⟨0, _⟩ =>
    show win0_8.index _ (0 : Fin 2) * 10000 ≤ (i 0).val ∧ (i 0).val < win0_8.index _ (0 : Fin 2) * 10000 + 10000
    rw [E.o0]; show (i 0).val / 10000 * 10000 ≤ (i 0).val ∧ (i 0).val < (i 0).val / 10000 * 10000 + 10000; omega
  | ⟨1, _⟩ =>
    show win0_8.index _ (1 : Fin 2) * 131 ≤ (i 1).val ∧ (i 1).val < win0_8.index _ (1 : Fin 2) * 131 + 131
    rw [E.o1]; omega

/-- The output array after the region: the gated rows of the arrays, row by row. -/
theorem final (c : Dev nD) : (dat0 V c).arrAt 8 cfg0.N = result V c :=
  (dat0 V c).arrAt_eq_of_cover 8 (result V c) (fun t _ => flushed_eq V c t) cover

end Blocks

end Cert.KernelIdeal.Region0

end
-- ==== Proof.Region1.lean ====
/-
  The output layers as the second kernel computes them. One grid point handles 10000 clusters: its block of the result is
  `relu(relu(A W + b) U + e)` of its block `A` of aggregated rows, each matrix product a sum over the shared axis, each
  bias laid along the rows. Row `p` of point `t`'s block is row `10000·t + p` of the array, the five points' blocks tile the
  50000 rows, and the weights and biases are whole at every point; so the result array is the output layers of the
  aggregated array, row by row.
-/
import proofs.«114259_j46961172414968_1_alg».proof.Proof.Gen.KernelIdeal.Frame
import proofs.«114259_j46961172414968_1_alg».proof.Proof.Spec
import proofs.«114259_j46961172414968_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibPlainDot

theorem hz : (![0, 0] : Fin 2 → Nat) = fun _ => 0 := funext fun a => by fin_cases a <;> rfl
theorem hz1 : (![0] : Fin 1 → Nat) = fun _ => 0 := funext fun a => by fin_cases a <;> rfl

/-! ## The two products' dimension numbers, coordinate by coordinate -/

theorem da_l0 (i : S10000x128.Idx) (q : dot_S10000x131_S131x128_S10000x128_1_0_0_1_n_n.contr.Idx) : (dot_S10000x131_S131x128_S10000x128_1_0_0_1_n_n.lhsIdx i q 0).val = (i 0).val := by
  unfold DotDims.lhsIdx
  rw [dif_neg (show ¬(0 : Fin S10000x131.rank) ∈ dot_S10000x131_S131x128_S10000x128_1_0_0_1_n_n.lhsBatch by decide), dif_pos (show (0 : Fin S10000x131.rank) ∈ dot_S10000x131_S131x128_S10000x128_1_0_0_1_n_n.lhsNonContracting by decide)]
  rfl
theorem da_l1 (i : S10000x128.Idx) (q : dot_S10000x131_S131x128_S10000x128_1_0_0_1_n_n.contr.Idx) : (dot_S10000x131_S131x128_S10000x128_1_0_0_1_n_n.lhsIdx i q 1).val = (q ⟨0, by decide⟩).val :=
  dot_S10000x131_S131x128_S10000x128_1_0_0_1_n_n.lhsIdx_val_of_single rfl i q
theorem da_r0 (i : S10000x128.Idx) (q : dot_S10000x131_S131x128_S10000x128_1_0_0_1_n_n.contr.Idx) : (dot_S10000x131_S131x128_S10000x128_1_0_0_1_n_n.rhsIdx i q 0).val = (q ⟨0, by decide⟩).val :=
  dot_S10000x131_S131x128_S10000x128_1_0_0_1_n_n.rhsIdx_val_of_single rfl i q
theorem da_r1 (i : S10000x128.Idx) (q : dot_S10000x131_S131x128_S10000x128_1_0_0_1_n_n.contr.Idx) : (dot_S10000x131_S131x128_S10000x128_1_0_0_1_n_n.rhsIdx i q 1).val = (i 1).val := by
  unfold DotDims.rhsIdx
  rw [dif_neg (show ¬(1 : Fin S131x128.rank) ∈ dot_S10000x131_S131x128_S10000x128_1_0_0_1_n_n.rhsBatch by decide), dif_pos (show (1 : Fin S131x128.rank) ∈ dot_S10000x131_S131x128_S10000x128_1_0_0_1_n_n.rhsNonContracting by decide)]
  rfl

theorem db_l0 (i : S10000x256.Idx) (q : dot_S10000x128_S128x256_S10000x256_1_0_0_1_n_n.contr.Idx) : (dot_S10000x128_S128x256_S10000x256_1_0_0_1_n_n.lhsIdx i q 0).val = (i 0).val := by
  unfold DotDims.lhsIdx
  rw [dif_neg (show ¬(0 : Fin S10000x128.rank) ∈ dot_S10000x128_S128x256_S10000x256_1_0_0_1_n_n.lhsBatch by decide), dif_pos (show (0 : Fin S10000x128.rank) ∈ dot_S10000x128_S128x256_S10000x256_1_0_0_1_n_n.lhsNonContracting by decide)]
  rfl
theorem db_l1 (i : S10000x256.Idx) (q : dot_S10000x128_S128x256_S10000x256_1_0_0_1_n_n.contr.Idx) : (dot_S10000x128_S128x256_S10000x256_1_0_0_1_n_n.lhsIdx i q 1).val = (q ⟨0, by decide⟩).val :=
  dot_S10000x128_S128x256_S10000x256_1_0_0_1_n_n.lhsIdx_val_of_single rfl i q
theorem db_r0 (i : S10000x256.Idx) (q : dot_S10000x128_S128x256_S10000x256_1_0_0_1_n_n.contr.Idx) : (dot_S10000x128_S128x256_S10000x256_1_0_0_1_n_n.rhsIdx i q 0).val = (q ⟨0, by decide⟩).val :=
  dot_S10000x128_S128x256_S10000x256_1_0_0_1_n_n.rhsIdx_val_of_single rfl i q
theorem db_r1 (i : S10000x256.Idx) (q : dot_S10000x128_S128x256_S10000x256_1_0_0_1_n_n.contr.Idx) : (dot_S10000x128_S128x256_S10000x256_1_0_0_1_n_n.rhsIdx i q 1).val = (i 1).val := by
  unfold DotDims.rhsIdx
  rw [dif_neg (show ¬(1 : Fin S128x256.rank) ∈ dot_S10000x128_S128x256_S10000x256_1_0_0_1_n_n.rhsBatch by decide), dif_pos (show (1 : Fin S128x256.rank) ∈ dot_S10000x128_S128x256_S10000x256_1_0_0_1_n_n.rhsNonContracting by decide)]
  rfl

/-- The first layer's product at `(p, k)`: `∑ₗ A(p,l)·W(l,k)`. -/
theorem mm_a (l : FVec Ideal S10000x131 .f32) (r : FVec Ideal S131x128 .f32) (p : Fin 10000) (k : Fin 128) :
    matmul (F := Ideal) dot_S10000x131_S131x128_S10000x128_1_0_0_1_n_n none l r (constant S10000x128 .f32 0x00000000#32) (ix2 p k)
      = ∑ x : Fin 131, l (ix2 p x) * r (ix2 x k) :=
  matmul_plain_apply dot_S10000x131_S131x128_S10000x128_1_0_0_1_n_n rfl rfl da_l0 da_l1 da_r0 da_r1 none l r p k

/-- The second layer's product at `(p, j)`: `∑ₖ H(p,k)·U(k,j)`. -/
theorem mm_b (l : FVec Ideal S10000x128 .f32) (r : FVec Ideal S128x256 .f32) (p : Fin 10000) (j : Fin 256) :
    matmul (F := Ideal) dot_S10000x128_S128x256_S10000x256_1_0_0_1_n_n none l r (constant S10000x256 .f32 0x00000000#32) (ix2 p j)
      = ∑ x : Fin 128, l (ix2 p x) * r (ix2 x j) :=
  matmul_plain_apply dot_S10000x128_S128x256_S10000x256_1_0_0_1_n_n rfl rfl db_l0 db_l1 db_r0 db_r1 none l r p j

/-! ## The body's value at one entry -/

/-- The stored value at `(p, j)` is output `j` of the output layers applied to row `p` of the loaded block. -/
theorem pay_apply (v0 : Vec Ideal S10000x131 .f32) (v2 : Vec Ideal S131x128 .f32) (v4 : Vec Ideal S128 .f32)
    (v10 : Vec Ideal S128x256 .f32) (v12 : Vec Ideal S256 .f32) (p : Fin 10000) (j : Fin 256) :
    k1_pay1 (F := Ideal) v0 v2 v4 v10 v12 (ix2 p j)
      = Spec.mlpRow (fun l => v0 (ix2 p l)) (fun l k => v2 (ix2 l k)) (fun k => v4 (ix1 k)) (fun k j => v10 (ix2 k j))
          (fun j => v12 (ix1 j)) j := by
  unfold k1_pay1
  rw [maximumf_apply, addf_apply, broadcast_apply, mm_b, bias_row_apply, scalar_zero]
  unfold Spec.mlpRow
  refine congrArg (fun s => max (s + v12 (ix1 j)) 0) (Finset.sum_congr rfl fun k _ => ?_)
  refine congrArg (· * v10 (ix2 k j)) ?_
  rw [maximumf_apply, addf_apply, broadcast_apply, mm_a, bias_row_apply, shapeCast_self]
  rfl

/-- What the body leaves in the output's buffer: the output layers of the input blocks. -/
theorem out_eq (x0 : Vec Ideal S10000x131 .f32) (x1 : Vec Ideal S131x128 .f32) (x2 : Vec Ideal S128 .f32)
    (x3 : Vec Ideal S128x256 .f32) (x4 : Vec Ideal S256 .f32) :
    out1_5 (F := Ideal) x0 x1 x2 x3 x4 = Spec.mlp (R := 10000) x0 x1 x2 x3 x4 := by
  unfold out1_5
  rw [View.canon_unit_zero hz]
  simp only [View.ld_unit_zero (S := S10000x131) hz, View.ld_unit_zero (S := S131x128) hz, View.ld_unit_zero (S := S128) hz1,
    View.ld_unit_zero (S := S128x256) hz, View.ld_unit_zero (S := S256) hz1]
  funext i
  obtain ⟨p, j, rfl⟩ : ∃ (p : Fin 10000) (j : Fin 256), i = ix2 p j := ⟨i 0, i 1, eq_ix2 i⟩
  exact pay_apply x0 x1 x2 x3 x4 p j

/-! ## From blocks to the array -/

section Blocks

variable (V : (c : Dev nD) → (b : Ref sig .tc) → Buf (Elt Ideal) ((c : Thread nD τ).loc b))

/-- The printed index maps over the five grid points: the aggregated rows' and the result's blocks move with the point
    along the rows, the weights' and biases' stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of point `t`'s block of aggregated rows is row `10000·t + p` of the array. -/
theorem blk0_apply (c : Dev nD) (t : Fin cfg1.N) (p : Fin 10000) (l : Fin 131) :
    iblk1 V c 0 t (ix2 p l)
      = (V c main_v12 : Spec.Arr2 50000 131) (ix2 ⟨t.val * 10000 + p.val, by have ht : t.val < 5 := t.isLt; have := p.isLt; show _ < 50000; omega⟩ l) := by
  obtain ⟨e0, e1, -⟩ := idx_facts t
  show V c main_v12 (((cfg1.win 0).blk t).view.emb (ix2 p l)) = _
  refine congrArg (V c main_v12) (funext fun a => Fin.ext ?_)
  match a with
  | ⟨0, _⟩ => show win1_0.index t (0 : Fin 2) * 10000 + 1 * p.val = t.val * 10000 + p.val; omega
  | ⟨1, _⟩ => show win1_0.index t (1 : Fin 2) * 131 + 1 * l.val = l.val; omega

/-- The first layer's weights are whole at every point. -/
theorem blk1_eq (c : Dev nD) (t : Fin cfg1.N) : iblk1 V c 1 t = (V c main_arg8 : Spec.Arr2 131 128) := by
  obtain ⟨-, -, e0, e1, -⟩ := idx_facts t
  funext y
  show V c main_arg8 (((cfg1.win 1).blk t).view.emb y) = V c main_arg8 y
  refine congrArg (V c main_arg8) (funext fun a => Fin.ext ?_)
  match a with
  | ⟨0, _⟩ => show win1_1.index t (0 : Fin 2) * 131 + 1 * (y 0).val = (y 0).val; omega
  | ⟨1, _⟩ => show win1_1.index t (1 : Fin 2) * 128 + 1 * (y 1).val = (y 1).val; omega

/-- So is the first bias. -/
theorem blk2_eq (c : Dev nD) (t : Fin cfg1.N) : iblk1 V c 2 t = (V c main_arg9 : Spec.Arr1 128) := by
  obtain ⟨-, -, -, -, e0, -⟩ := idx_facts t
  funext y
  show V c main_arg9 (((cfg1.win 2).blk t).view.emb y) = V c main_arg9 y
  refine congrArg (V c main_arg9) (funext fun a => Fin.ext ?_)
  match a with
  | ⟨0, _⟩ => show win1_2.index t (0 : Fin 1) * 128 + 1 * (y 0).val = (y 0).val; omega

/-- So are the second layer's weights. -/
theorem blk3_eq (c : Dev nD) (t : Fin cfg1.N) : iblk1 V c 3 t = (V c main_arg10 : Spec.Arr2 128 256) := by
  obtain ⟨-, -, -, -, -, e0, e1, -⟩ := idx_facts t
  funext y
  show V c main_arg10 (((cfg1.win 3).blk t).view.emb y) = V c main_arg10 y
  refine congrArg (V c main_arg10) (funext fun a => Fin.ext ?_)
  match a with
  | ⟨0, _⟩ => show win1_3.index t (0 : Fin 2) * 128 + 1 * (y 0).val = (y 0).val; omega
  | ⟨1, _⟩ => show win1_3.index t (1 : Fin 2) * 256 + 1 * (y 1).val = (y 1).val; omega

/-- And the second bias. -/
theorem blk4_eq (c : Dev nD) (t : Fin cfg1.N) : iblk1 V c 4 t = (V c main_arg11 : Spec.Arr1 256) := by
  obtain ⟨-, -, -, -, -, -, -, e0, -⟩ := idx_facts t
  funext y
  show V c main_arg11 (((cfg1.win 4).blk t).view.emb y) = V c main_arg11 y
  refine congrArg (V c main_arg11) (funext fun a => Fin.ext ?_)
  match a with
  | ⟨0, _⟩ => show win1_4.index t (0 : Fin 1) * 256 + 1 * (y 0).val = (y 0).val; omega

/-- The output layers of the aggregated array as the region finds it. -/
abbrev result (c : Dev nD) : Spec.Arr2 50000 256 :=
  Spec.mlp (V c main_v12) (V c main_arg8) (V c main_arg9) (V c main_arg10) (V c main_arg11)

/-- What point `t` writes back is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5, out_eq, blk1_eq, blk2_eq, blk3_eq, blk4_eq]
  obtain ⟨-, -, -, -, -, -, -, -, e0, e1⟩ := idx_facts t
  funext j
  obtain ⟨p, q, rfl⟩ : ∃ (p : Fin 10000) (q : Fin 256), j = ix2 p q := ⟨j 0, j 1, eq_ix2 j⟩
  have he : ((cfg1.win 5).blk t).view.emb (ix2 p q)
      = (ix2 (⟨t.val * 10000 + p.val, by have ht : t.val < 5 := t.isLt; have := p.isLt; show _ < 50000; omega⟩ : Fin 50000) q : (⟨2, ![50000, 256]⟩ : Shape).Idx) :=
    funext fun a => Fin.ext (by
      match a with
      | ⟨0, _⟩ => show win1_5.index t (0 : Fin 2) * 10000 + 1 * p.val = t.val * 10000 + p.val; omega
      | ⟨1, _⟩ => show win1_5.index t (1 : Fin 2) * 256 + 1 * q.val = q.val; omega)
  show Spec.mlp (iblk1 V c 0 t) _ _ _ _ (ix2 p q) = result V c (((cfg1.win 5).blk t).view.emb (ix2 p q))
  rw [he]
  exact Spec.mlp_congr_row _ _ _ _ _ _ p _ q (fun l => blk0_apply V c t p l)

/-- An index of the result array is in point `t`'s block iff its row is among the point's 10000. -/
theorem mem_blk (t : Fin cfg1.N) (i : S50000x256.Idx) :
    i ∈ ((cfg1.win 5).blk t).view.set ↔ ∀ a : Fin 2, win1_5.index t a * S10000x256.size a ≤ (i a).val ∧ (i a).val < win1_5.index t a * S10000x256.size a + S10000x256.size a := by
  show i ∈ ((View.whole main_v13).slice (win1_5.rect t)).set ↔ _
  rw [View.set_slice_whole, Rect.mem_set_unit]
  exact Iff.rfl

/-- Every index of the result array is in the block of the point its row falls to. -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  refine ⟨⟨(i 0).val / 10000, by show _ < 5; omega⟩, flush1_5 _, ?_⟩
  rw [mem_blk]
  obtain ⟨-, -, -, -, -, -, -, -, e0, e1⟩ := idx_facts ⟨(i 0).val / 10000, by show _ < 5; omega⟩
  intro a
  match a with
  | ⟨0, _⟩ =>
    show win1_5.index _ (0 : Fin 2) * 10000 ≤ (i 0).val ∧ (i 0).val < win1_5.index _ (0 : Fin 2) * 10000 + 10000
    rw [e0]; show (i 0).val / 10000 * 10000 ≤ (i 0).val ∧ (i 0).val < (i 0).val / 10000 * 10000 + 10000; omega
  | ⟨1, _⟩ =>
    show win1_5.index _ (1 : Fin 2) * 256 ≤ (i 1).val ∧ (i 1).val < win1_5.index _ (1 : Fin 2) * 256 + 256
    rw [e1]; omega

/-- The result array after the region: the output layers of the aggregated array, row by row. -/
theorem final (c : Dev nD) : (dat1 V c).arrAt 5 cfg1.N = result V c :=
  (dat1 V c).arrAt_eq_of_cover 5 (result V c) (fun t _ => flushed_eq V c t) cover

end Blocks

end Cert.KernelIdeal.Region1

end
-- ==== Proof.KernelIdealValue.lean ====
/-
  The kernel program's result, boundary by boundary. Before the first kernel the host gathers each point's centre and
  cuts the gate's weight matrix into its first 128 rows and its last 3; the first kernel leaves the gated rows; the host
  sums them into their clusters; the second kernel applies the output layers. The two row blocks of the weight matrix,
  read at an index, are rows `l` and `128 + l` of the matrix, so the gated rows are those of the whole matrix.
-/
import proofs.«114259_j46961172414968_1_alg».proof.Proof.Gen.KernelIdeal.Frame
import proofs.«114259_j46961172414968_1_alg».proof.Proof.Spec
import proofs.«114259_j46961172414968_1_alg».proof.Proof.Region0
import proofs.«114259_j46961172414968_1_alg».proof.Proof.Region1
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Thread

open Cert.KernelIdeal Cert.KernelIdeal.Gen
open Idealize.ShloMosaic Idealize.ShloMosaic.TcCoe Idealize.ShloMosaic.ValueIdx Idealize.SL.Sem Idealize.ShloMosaic.StableHlo

/-! ## The weight matrix's two row blocks -/

/-- Row `l` of the first 128 rows is row `l` of the matrix. -/
theorem slice_lo (w : Spec.Arr2 131 64) (h : (⟨2, ![131, 64]⟩ : Shape).Slices ![0, 0] ⟨2, ![128, 64]⟩) (l : Fin 128) (k : Fin 64) :
    extractStridedSlice ⟨2, ![128, 64]⟩ ![0, 0] w h (ix2 l k)
      = w (ix2 (⟨l.val, Nat.lt_of_lt_of_le l.isLt (by decide)⟩ : Fin 131) k) :=
  extractStridedSlice_apply ![0, 0] w h _ _ (fun a => by
    match a with
    | ⟨0, _⟩ => show l.val = 0 + l.val; omega
    | ⟨1, _⟩ => show k.val = 0 + k.val; omega)

/-- Row `l` of the last 3 rows is row `128 + l` of the matrix. -/
theorem slice_hi (w : Spec.Arr2 131 64) (h : (⟨2, ![131, 64]⟩ : Shape).Slices ![128, 0] ⟨2, ![3, 64]⟩) (l : Fin 3) (k : Fin 64) :
    extractStridedSlice ⟨2, ![3, 64]⟩ ![128, 0] w h (ix2 l k)
      = w (ix2 (⟨128 + l.val, by have := l.isLt; omega⟩ : Fin 131) k) :=
  extractStridedSlice_apply ![128, 0] w h _ _ (fun a => by
    match a with
    | ⟨0, _⟩ => show 128 + l.val = 128 + l.val; rfl
    | ⟨1, _⟩ => show k.val = 0 + k.val; omega)

/-- The gated rows over the two row blocks are the gated rows over the whole matrix. -/
theorem gated_slices {R : Nat} (feat : Spec.Arr2 R 128) (pts cen : Spec.Arr2 R 3) (w : Spec.Arr2 131 64)
    (h0 : (⟨2, ![131, 64]⟩ : Shape).Slices ![0, 0] ⟨2, ![128, 64]⟩) (h1 : (⟨2, ![131, 64]⟩ : Shape).Slices ![128, 0] ⟨2, ![3, 64]⟩)
    (b : Spec.Arr1 64) (v : Spec.Arr2 64 1) (c : Spec.Arr1 1) :
    Spec.gated feat pts cen (extractStridedSlice ⟨2, ![128, 64]⟩ ![0, 0] w h0) (extractStridedSlice ⟨2, ![3, 64]⟩ ![128, 0] w h1) b v c
      = Spec.gatedW feat pts cen w b v c := by
  funext i
  unfold Spec.gated Spec.gatedW
  have e0 : (fun (l : Fin 128) (k : Fin 64) => extractStridedSlice ⟨2, ![128, 64]⟩ ![0, 0] w h0 (ix2 l k))
      = fun l k => w (ix2 (⟨l.val, Nat.lt_of_lt_of_le l.isLt (by decide)⟩ : Fin 131) k) :=
    funext fun l => funext fun k => slice_lo w h0 l k
  have e1 : (fun (l : Fin 3) (k : Fin 64) => extractStridedSlice ⟨2, ![3, 64]⟩ ![128, 0] w h1 (ix2 l k))
      = fun l k => w (ix2 (⟨128 + l.val, by have := l.isLt; omega⟩ : Fin 131) k) :=
    funext fun l => funext fun k => slice_hi w h1 l k
  rw [e0, e1]

/-! ## The boundaries -/

variable (m : (ℓ : Loc nD τ sig) → Buf (Elt Ideal) ℓ) (ρ : Dev nD → PrngReg)

/-- The host operations before the first kernel write no argument. -/
theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results <;> rfl
theorem W1_arg8 (c : Dev nD) : W1 m ρ c (Proc.devRef .tc main_arg8) = m ((c : Thread nD τ).loc main_arg8) := by
  show StableHlo.after hostOps0 (W0 m ρ c) (Proc.devRef .tc main_arg8) = _
  dsimp only [hostOps0]
  after_results <;> rfl
theorem W1_arg9 (c : Dev nD) : W1 m ρ c (Proc.devRef .tc main_arg9) = m ((c : Thread nD τ).loc main_arg9) := by
  show StableHlo.after hostOps0 (W0 m ρ c) (Proc.devRef .tc main_arg9) = _
  dsimp only [hostOps0]
  after_results <;> rfl
theorem W1_arg10 (c : Dev nD) : W1 m ρ c (Proc.devRef .tc main_arg10) = m ((c : Thread nD τ).loc main_arg10) := by
  show StableHlo.after hostOps0 (W0 m ρ c) (Proc.devRef .tc main_arg10) = _
  dsimp only [hostOps0]
  after_results <;> rfl
theorem W1_arg11 (c : Dev nD) : W1 m ρ c (Proc.devRef .tc main_arg11) = m ((c : Thread nD τ).loc main_arg11) := by
  show StableHlo.after hostOps0 (W0 m ρ c) (Proc.devRef .tc main_arg11) = _
  dsimp only [hostOps0]
  after_results <;> rfl

/-- Each point's gathered centre. -/
abbrev cen (c : Dev nD) : Spec.Arr2 500000 3 :=
  Host.gather gather_S50000x3_S500000x1_S500000x3_1_0_n_n_0_1_13 (m ((c : Thread nD τ).loc main_arg2))
    (broadcastInDim S500000x1 ![0] bcast_S500000_S500000x1_0
      (select (cmpi .slt (m ((c : Thread nD τ).loc main_arg3)) (broadcastInDim S500000 ![] bcast_S_S500000 (constantI S_ 32 0#32)))
        (addi (m ((c : Thread nD τ).loc main_arg3)) (broadcastInDim S500000 ![] bcast_S_S500000 (constantI S_ 32 50000#32)))
        (m ((c : Thread nD τ).loc main_arg3))))

/-- The gated rows summed into their clusters. -/
abbrev agg (c : Dev nD) : Spec.Arr2 50000 131 :=
  Host.scatterAdd (F := Ideal) (φ := .f32) scatter_S50000x131_S500000x1_S500000x131_1_0_0_1
    (broadcastInDim S50000x131 ![] bcast_S_S50000x131 (constant (F := Ideal) S_ .f32 0x00000000#32))
    (broadcastInDim S500000x1 ![0] bcast_S500000_S500000x1_0 (m ((c : Thread nD τ).loc main_arg3)))
    (Spec.gatedW (m ((c : Thread nD τ).loc main_arg0)) (m ((c : Thread nD τ).loc main_arg1)) (cen m c) (m ((c : Thread nD τ).loc main_arg4)) (m ((c : Thread nD τ).loc main_arg5))
      (m ((c : Thread nD τ).loc main_arg6)) (m ((c : Thread nD τ).loc main_arg7)))

/-- The program's result: the output layers of the aggregated rows. -/
abbrev value (c : Dev nD) : Spec.Arr2 50000 256 :=
  Spec.mlp (agg m c) (m ((c : Thread nD τ).loc main_arg8)) (m ((c : Thread nD τ).loc main_arg9)) (m ((c : Thread nD τ).loc main_arg10)) (m ((c : Thread nD τ).loc main_arg11))

/-- At the first kernel's entry: the gathered centres and the weight matrix's two row blocks. -/
theorem W1_v6 (c : Dev nD) : W1 m ρ c (Proc.devRef .tc main_v6) = cen m c := by
  show StableHlo.after hostOps0 (W0 m ρ c) (Proc.devRef .tc main_v6) = _
  dsimp only [hostOps0]
  after_results <;> rfl
theorem W1_v7 (c : Dev nD) : W1 m ρ c (Proc.devRef .tc main_v7)
    = extractStridedSlice S128x64 ![0, 0] (m ((c : Thread nD τ).loc main_arg4)) slices_S131x64_S128x64_0_0 := by
  show StableHlo.after hostOps0 (W0 m ρ c) (Proc.devRef .tc main_v7) = _
  dsimp only [hostOps0]
  after_results <;> rfl
theorem W1_v8 (c : Dev nD) : W1 m ρ c (Proc.devRef .tc main_v8)
    = extractStridedSlice S3x64 ![128, 0] (m ((c : Thread nD τ).loc main_arg4)) slices_S131x64_S3x64_128_0 := by
  show StableHlo.after hostOps0 (W0 m ρ c) (Proc.devRef .tc main_v8) = _
  dsimp only [hostOps0]
  after_results <;> rfl

/-- After the first kernel its output array holds the gated rows. -/
theorem W2_v9 (c : Dev nD) : W2 m ρ c (Proc.devRef .tc main_v9)
    = Spec.gatedW (m ((c : Thread nD τ).loc main_arg0)) (m ((c : Thread nD τ).loc main_arg1)) (cen m c) (m ((c : Thread nD τ).loc main_arg4)) (m ((c : Thread nD τ).loc main_arg5))
        (m ((c : Thread nD τ).loc main_arg6)) (m ((c : Thread nD τ).loc main_arg7)) := by
  refine (W2_arr m ρ c 8).trans ((Region0.final (V1 m ρ) c).trans ?_)
  show Spec.gated (W1 m ρ c (Proc.devRef .tc main_arg0)) (W1 m ρ c (Proc.devRef .tc main_arg1)) (W1 m ρ c (Proc.devRef .tc main_v6))
    (W1 m ρ c (Proc.devRef .tc main_v7)) (W1 m ρ c (Proc.devRef .tc main_v8)) (W1 m ρ c (Proc.devRef .tc main_arg5))
    (W1 m ρ c (Proc.devRef .tc main_arg6)) (W1 m ρ c (Proc.devRef .tc main_arg7)) = _
  rw [W1_arg0, W1_arg1, W1_v6, W1_v7, W1_v8, W1_arg5, W1_arg6, W1_arg7]
  exact gated_slices _ _ _ _ _ _ _ _ _

/-- The first kernel writes no argument either. -/
theorem W2_arg (c : Dev nD) (b : Ref sig .tc) (hb : ∀ w, Pipeline.arrRef spec0 w ≠ b)
    (h1 : W1 m ρ c (Proc.devRef .tc b) = m ((c : Thread nD τ).loc b)) :
    W2 m ρ c (Proc.devRef .tc b) = m ((c : Thread nD τ).loc b) :=
  (W2_of_ne m ρ c b hb).trans h1

/-- At the second kernel's entry: the aggregated rows. -/
theorem W3_v12 (c : Dev nD) : W3 m ρ c (Proc.devRef .tc main_v12) = agg m c := by
  show StableHlo.after hostOps1 (W2 m ρ c) (Proc.devRef .tc main_v12) = _
  dsimp only [hostOps1]
  after_results
  rw [W2_v9, W2_arg m ρ c main_arg3 (by decide) (W1_arg3 m ρ c)]

/-- The host operations between the kernels write no argument. -/
theorem W3_arg (c : Dev nD) (b : Ref sig .tc) (hne : b ≠ main_cst ∧ b ≠ main_v10 ∧ b ≠ main_v11 ∧ b ≠ main_v12)
    (hb : ∀ w, Pipeline.arrRef spec0 w ≠ b) (h1 : W1 m ρ c (Proc.devRef .tc b) = m ((c : Thread nD τ).loc b)) :
    W3 m ρ c (Proc.devRef .tc b) = m ((c : Thread nD τ).loc b) := by
  obtain ⟨n0, n1, n2, n3⟩ := hne
  show StableHlo.after hostOps1 (W2 m ρ c) (Proc.devRef .tc b) = _
  dsimp only [hostOps1]
  simp only [after_cons, after_nil]
  rw [ternary_result_ne _ _ _ _ _ _ _ _ _ _ n3, unary_result_ne _ _ _ _ _ _ n2, unary_result_ne _ _ _ _ _ _ n1, nullary_result_ne _ _ _ _ n0]
  exact W2_arg m ρ c b hb h1

/-- THE RESULT after the run's last boundary. -/
theorem result_eq (c : Dev nD) : W4 m ρ c (Proc.devRef .tc main_v13) = value m c := by
  refine (W4_arr m ρ c 5).trans ((Region1.final (V3 m ρ) c).trans ?_)
  show Spec.mlp (W3 m ρ c (Proc.devRef .tc main_v12)) (W3 m ρ c (Proc.devRef .tc main_arg8)) (W3 m ρ c (Proc.devRef .tc main_arg9))
    (W3 m ρ c (Proc.devRef .tc main_arg10)) (W3 m ρ c (Proc.devRef .tc main_arg11)) = _
  rw [W3_v12, W3_arg m ρ c main_arg8 (by decide) (by decide) (W1_arg8 m ρ c), W3_arg m ρ c main_arg9 (by decide) (by decide) (W1_arg9 m ρ c),
    W3_arg m ρ c main_arg10 (by decide) (by decide) (W1_arg10 m ρ c), W3_arg m ρ c main_arg11 (by decide) (by decide) (W1_arg11 m ρ c)]

end Cert.KernelIdeal.Thread

end
-- ==== Proof.RefValue.lean ====
/-
  The reference, read index by index. Its rows are the concatenation `[x; d]` of a point's features and its offset
  `d = centre − position`; the product of such a row with the 131-row weight matrix is the features against the first
  128 rows plus the offset against the last 3 (a sum over 131 indices split after the 128th); the quotient
  `1 / (1 + e⁻ᵗ)` is the logistic function; so the rows it scatters are the gated rows of the specification, and the
  layers after the scatter are the specification's output layers of the aggregated array.
-/
import proofs.«114259_j46961172414968_1_alg».proof.Proof.Gen.ReferenceIdeal.Run
import proofs.«114259_j46961172414968_1_alg».proof.Proof.Gen.ReferenceIdeal.Read
import proofs.«114259_j46961172414968_1_alg».proof.Proof.Spec
import Idealize.ShloMosaic.Lib.Pipeline.Value
import Idealize.ShloMosaic.Lib.ValueIdx
import Idealize.ShloMosaic.PureOps.Ideal.Laws
import Idealize.ShloMosaic.PureOps.IdealRules

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

variable (x0 : (⟨S500000x128, .f32⟩ : BufTy).Contents (Elt Ideal)) (x1 : (⟨S500000x3, .f32⟩ : BufTy).Contents (Elt Ideal))
  (x2 : (⟨S50000x3, .f32⟩ : BufTy).Contents (Elt Ideal)) (x3 : (⟨S500000, .i32⟩ : BufTy).Contents (Elt Ideal))
  (x4 : (⟨S131x64, .f32⟩ : BufTy).Contents (Elt Ideal)) (x5 : (⟨S64, .f32⟩ : BufTy).Contents (Elt Ideal))
  (x6 : (⟨S64x1, .f32⟩ : BufTy).Contents (Elt Ideal)) (x7 : (⟨S1, .f32⟩ : BufTy).Contents (Elt Ideal))
  (x8 : (⟨S131x128, .f32⟩ : BufTy).Contents (Elt Ideal)) (x9 : (⟨S128, .f32⟩ : BufTy).Contents (Elt Ideal))
  (x10 : (⟨S128x256, .f32⟩ : BufTy).Contents (Elt Ideal)) (x11 : (⟨S256, .f32⟩ : BufTy).Contents (Elt Ideal))

/-- The words of the two literals: zero and one. -/
theorem word_zero : FloatOps.ofBits (F := Ideal) .f32 0x00000000#32 = (0 : EReal) := Ideal.ofBits_zero_f32
theorem word_one : FloatOps.ofBits (F := Ideal) .f32 0x3F800000#32 = (1 : EReal) := IdealRules.sign_bit.ideal_onePat .f32

/-- The gathered centres, one row per point: the same term on both sides of the claim, never opened. -/
abbrev cen : Spec.Arr2 500000 3 := val_main_v6 (F := Ideal) x2 x3

/-- Entry `(r, j)` of the concatenated array is entry `j` of `[features of r; offset of r]`. -/
theorem v8_at (r : Fin 500000) (j : Fin 131) :
    val_main_v8 (F := Ideal) x0 x1 x2 x3 (ix2 r j)
      = Spec.cat (fun l => x0 (ix2 r l)) (fun l => cen x2 x3 (ix2 r l) - x1 (ix2 r l)) j := by
  unfold val_main_v8 Spec.cat
  split
  · rename_i hj
    exact concatenate_pair_apply_left (1 : Fin S500000x131.rank) x0 (val_main_v7 (F := Ideal) x1 x2 x3)
      concatenates_S500000x128_S500000x3_S500000x131_d1 (ix2 r j) rfl (ix2 r (⟨j.val, hj⟩ : Fin 128))
      (fun b => by match b with | ⟨0, _⟩ => rfl | ⟨1, _⟩ => rfl)
  · rename_i hj
    exact concatenate_pair_apply_right (1 : Fin S500000x131.rank) x0 (val_main_v7 (F := Ideal) x1 x2 x3)
      concatenates_S500000x128_S500000x3_S500000x131_d1 (ix2 r j) rfl rfl
      (ix2 r (⟨j.val - 128, by have := j.isLt; omega⟩ : Fin 3))
      (fun b hb => by match b with | ⟨0, _⟩ => rfl | ⟨1, _⟩ => exact absurd rfl hb)
      (by show (j.val - 128) + 128 = j.val; omega)

/-- The first layer's product at `(r, k)`, split after the 128th row of the weights. -/
theorem v9_at (r : Fin 500000) (k : Fin 64) :
    val_main_v9 (F := Ideal) x0 x1 x2 x3 x4 (ix2 r k)
      = (∑ l : Fin 128, x0 (ix2 r l) * x4 (ix2 (⟨l.val, Nat.lt_of_lt_of_le l.isLt (by decide)⟩ : Fin 131) k))
        + ∑ l : Fin 3, (cen x2 x3 (ix2 r l) - x1 (ix2 r l)) * x4 (ix2 (⟨128 + l.val, by have := l.isLt; omega⟩ : Fin 131) k) := by
  rw [val_main_v9_apply]
  have hl : ∀ l : Fin 131, lidx_main_v9 (ix2 r k) l = ix2 r l := fun l => funext fun a => by
    match a with | ⟨0, _⟩ => rfl | ⟨1, _⟩ => rfl
  have hr : ∀ l : Fin 131, ridx_main_v9 (ix2 r k) l = ix2 l k := fun l => funext fun a => by
    match a with | ⟨0, _⟩ => rfl | ⟨1, _⟩ => rfl
  simp only [hl, hr, v8_at]
  exact Spec.cat_dot _ _ (fun l => x4 (ix2 l k))

/-- The hidden unit `k` of point `r`. -/
theorem v13_at (r : Fin 500000) (k : Fin 64) :
    val_main_v13 (F := Ideal) x0 x1 x2 x3 x4 x5 (ix2 r k)
      = Spec.gateHidden (fun l => x0 (ix2 r l)) (fun l => cen x2 x3 (ix2 r l) - x1 (ix2 r l))
          (fun l k => x4 (ix2 (⟨l.val, Nat.lt_of_lt_of_le l.isLt (by decide)⟩ : Fin 131) k))
          (fun l k => x4 (ix2 (⟨128 + l.val, by have := l.isLt; omega⟩ : Fin 131) k)) (fun k => x5 (ix1 k)) k := by
  rw [val_main_v13_apply, val_main_v12_apply, v9_at, val_main_v11_apply, val_main_v10_apply, val_main_call0_v0_apply,
    val_main_call0_cst_apply, word_zero]
  have hb : idx_main_v10 (idx_main_v11 (ix2 r k)) = ix1 k := funext fun a => by match a with | ⟨0, _⟩ => rfl
  rw [hb]
  rfl

/-- The gate of point `r`: the quotient `1 / (1 + e⁻ᵗ)` is the logistic function of `t`. -/
theorem v23_at (r : Fin 500000) (z : Fin 1) :
    val_main_v23 (F := Ideal) x0 x1 x2 x3 x4 x5 x6 x7 (ix2 r z)
      = Spec.gate (fun l => x0 (ix2 r l)) (fun l => cen x2 x3 (ix2 r l) - x1 (ix2 r l))
          (fun l k => x4 (ix2 (⟨l.val, Nat.lt_of_lt_of_le l.isLt (by decide)⟩ : Fin 131) k))
          (fun l k => x4 (ix2 (⟨128 + l.val, by have := l.isLt; omega⟩ : Fin 131) k)) (fun k => x5 (ix1 k))
          (fun k => x6 (ix2 k 0)) (x7 (ix1 0)) := by
  obtain rfl : z = 0 := Subsingleton.elim _ _
  rw [val_main_v23_apply, val_main_v22_apply, val_main_cst_1_apply, val_main_v21_apply, val_main_v20_apply,
    val_main_cst_apply, val_main_v19_apply, val_main_v18_apply, val_main_v17_apply, val_main_v14_apply,
    val_main_v16_apply, val_main_v15_apply, word_one]
  have hl : ∀ k : Fin 64, lidx_main_v14 (ix2 r (0 : Fin 1)) k = ix2 r k := fun k => funext fun a => by
    match a with | ⟨0, _⟩ => rfl | ⟨1, _⟩ => rfl
  have hr : ∀ k : Fin 64, ridx_main_v14 (ix2 r (0 : Fin 1)) k = ix2 k (0 : Fin 1) := fun k => funext fun a => by
    match a with | ⟨0, _⟩ => rfl | ⟨1, _⟩ => rfl
  have hb : idx_main_v15 (idx_main_v16 (ix2 r (0 : Fin 1))) = ix1 (0 : Fin 1) := funext fun a => by match a with | ⟨0, _⟩ => rfl
  simp only [hl, hr, hb, v13_at]
  rfl

/-- THE GATED ROWS: what the reference scatters is the specification's gated rows of the arguments and the gathered
    centres. -/
theorem v25_eq :
    val_main_v25 (F := Ideal) x0 x1 x2 x3 x4 x5 x6 x7 = Spec.gatedW (R := 500000) x0 x1 (cen x2 x3) x4 x5 x6 x7 := by
  funext i
  obtain ⟨r, j, rfl⟩ : ∃ (r : Fin 500000) (j : Fin 131), i = ix2 r j := ⟨i 0, i 1, eq_ix2 i⟩
  rw [val_main_v25_apply, val_main_v24_apply, v8_at]
  have hz : idx_main_v24 (ix2 r j) = ix2 r (0 : Fin 1) := funext fun a => by match a with | ⟨0, _⟩ => rfl | ⟨1, _⟩ => rfl
  rw [hz, v23_at]
  rfl

/-! ## The layers after the scatter -/

/-- Hidden unit `k` of cluster `r`, over the scattered array's row `r`. -/
theorem v33_at (r : Fin 50000) (k : Fin 128) :
    val_main_v33 (F := Ideal) x0 x1 x2 x3 x4 x5 x6 x7 x8 x9 (ix2 r k)
      = Spec.mlpHidden (fun l => val_main_v28 (F := Ideal) x0 x1 x2 x3 x4 x5 x6 x7 (ix2 r l)) (fun l k => x8 (ix2 l k))
          (fun k => x9 (ix1 k)) k := by
  rw [val_main_v33_apply, val_main_v32_apply, val_main_v29_apply, val_main_v31_apply, val_main_v30_apply,
    val_main_call1_v0_apply, val_main_call1_cst_apply, word_zero]
  have hl : ∀ l : Fin 131, lidx_main_v29 (ix2 r k) l = ix2 r l := fun l => funext fun a => by
    match a with | ⟨0, _⟩ => rfl | ⟨1, _⟩ => rfl
  have hr : ∀ l : Fin 131, ridx_main_v29 (ix2 r k) l = ix2 l k := fun l => funext fun a => by
    match a with | ⟨0, _⟩ => rfl | ⟨1, _⟩ => rfl
  have hb : idx_main_v30 (idx_main_v31 (ix2 r k)) = ix1 k := funext fun a => by match a with | ⟨0, _⟩ => rfl
  simp only [hl, hr]
  rw [hb]
  rfl

/-- THE RESULT over the scattered array: the specification's output layers, row by row. -/
theorem v38_eq :
    val_main_v38 (F := Ideal) x0 x1 x2 x3 x4 x5 x6 x7 x8 x9 x10 x11 = Spec.mlp (R := 50000) (val_main_v28 (F := Ideal) x0 x1 x2 x3 x4 x5 x6 x7) x8 x9 x10 x11 := by
  funext i
  obtain ⟨r, j, rfl⟩ : ∃ (r : Fin 50000) (j : Fin 256), i = ix2 r j := ⟨i 0, i 1, eq_ix2 i⟩
  rw [val_main_v38_apply, val_main_v37_apply, val_main_v34_apply, val_main_v36_apply, val_main_v35_apply,
    val_main_call2_v0_apply, val_main_call2_cst_apply, word_zero]
  have hl : ∀ k : Fin 128, lidx_main_v34 (ix2 r j) k = ix2 r k := fun k => funext fun a => by
    match a with | ⟨0, _⟩ => rfl | ⟨1, _⟩ => rfl
  have hr : ∀ k : Fin 128, ridx_main_v34 (ix2 r j) k = ix2 k j := fun k => funext fun a => by
    match a with | ⟨0, _⟩ => rfl | ⟨1, _⟩ => rfl
  have hb : idx_main_v35 (idx_main_v36 (ix2 r j)) = ix1 j := funext fun a => by match a with | ⟨0, _⟩ => rfl
  simp only [hl, hr, v33_at]
  rw [hb]
  rfl

/-- The reference's result: the output layers of the gated rows summed into their clusters. -/
theorem result_eq :
    val_main_v38 (F := Ideal) x0 x1 x2 x3 x4 x5 x6 x7 x8 x9 x10 x11
      = Spec.mlp (R := 50000)
          (Host.scatterAdd (F := Ideal) (φ := .f32) scatter_S50000x131_S500000x1_S500000x131_1_0_0_1 (val_main_v26 (F := Ideal))
            (val_main_v27 (F := Ideal) x3) (Spec.gatedW (R := 500000) x0 x1 (cen x2 x3) x4 x5 x6 x7))
          x8 x9 x10 x11 := by
  rw [v38_eq]
  unfold val_main_v28
  rw [v25_eq]

end Cert.ReferenceIdeal.RefValue

end
-- ==== Proof.lean ====
/-
  The certificate. Both programs compute, on the extended reals, the same function of the twelve arguments. Each point of
  the cloud gets the offset `d` from its position to its cluster's centre and a gate
  `σ(v · relu(Wᵀ[x; d] + b) + c)`, `σ t = 1 / (1 + e⁻ᵗ)`; the rows `[x; d]` scaled by their gates are summed into
  their clusters; each cluster's sum `a` is mapped to `relu(Uᵀ relu(Wᵀ a + b) + e)`.
  The kernel program forms `Wᵀ[x; d]` as the features against the first 128 rows of the weight matrix plus the offset
  against its last 3, and writes the gated row as two column blocks; the reference concatenates first and takes one
  product. The two agree by splitting a sum over 131 indices after the 128th, which needs no finiteness: addition of
  extended reals is associative and commutative. The gather of the centres and the sum into clusters are the same
  operations of the same arguments in both programs and are never opened. Nothing here uses that the inputs are finite.
  No operation was rewritten when the kernel was idealized, so that conjunct is `True`.
-/
import proofs.«114259_j46961172414968_1_alg».proof.Defs
import proofs.«114259_j46961172414968_1_alg».proof.Proof.Gen.Kernel
import proofs.«114259_j46961172414968_1_alg».proof.Proof.Gen.Kernel.Skeleton
import proofs.«114259_j46961172414968_1_alg».proof.Proof.Gen.Kernel.Launch
import proofs.«114259_j46961172414968_1_alg».proof.Proof.Gen.Kernel.Points
import proofs.«114259_j46961172414968_1_alg».proof.Proof.Gen.Kernel.Frame
import proofs.«114259_j46961172414968_1_alg».proof.Proof.Gen.KernelIdeal
import proofs.«114259_j46961172414968_1_alg».proof.Proof.Gen.KernelIdeal.Skeleton
import proofs.«114259_j46961172414968_1_alg».proof.Proof.Gen.KernelIdeal.Launch
import proofs.«114259_j46961172414968_1_alg».proof.Proof.Gen.KernelIdeal.Points
import proofs.«114259_j46961172414968_1_alg».proof.Proof.Gen.KernelIdeal.Frame
import proofs.«114259_j46961172414968_1_alg».proof.Proof.Gen.ReferenceIdeal
import proofs.«114259_j46961172414968_1_alg».proof.Proof.Gen.ReferenceIdeal.Run
import proofs.«114259_j46961172414968_1_alg».proof.Proof.Gen.ReferenceIdeal.Read
import proofs.«114259_j46961172414968_1_alg».proof.Proof.Gen.Pre_finite_inputs
import proofs.«114259_j46961172414968_1_alg».proof.Proof.KernelIdealRun
import proofs.«114259_j46961172414968_1_alg».proof.Proof.KernelIdealValue
import proofs.«114259_j46961172414968_1_alg».proof.Proof.RefValue
import Idealize.ShloMosaic.Adequacy
import Idealize.ShloMosaic.Init

set_option maxRecDepth 16384

noncomputable section

namespace Cert.Proof

open Idealize.ShloMosaic Idealize.SL.Sem

/-- The two programs' terms for the result are one: their dimension records, shape facts and the gather of the centres
    are the same data under the two programs' names. -/
theorem value_eq (m : (ℓ : Loc Cert.KernelIdeal.nD Cert.KernelIdeal.τ Cert.KernelIdeal.sig) → Buf (Elt Ideal) ℓ)
    (c : Dev Cert.KernelIdeal.nD) :
    Spec.mlp (R := 50000)
        (Host.scatterAdd (F := Ideal) (φ := .f32) Cert.ReferenceIdeal.scatter_S50000x131_S500000x1_S500000x131_1_0_0_1
          (Cert.ReferenceIdeal.Read.val_main_v26 (F := Ideal))
          (Cert.ReferenceIdeal.Read.val_main_v27 (F := Ideal) (m ((c.tc : Thread Cert.KernelIdeal.nD Cert.KernelIdeal.τ).loc Cert.KernelIdeal.main_arg3)))
          (Spec.gatedW (R := 500000) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (Cert.ReferenceIdeal.RefValue.cen (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
            (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))))
        (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.KernelIdeal.Thread.value m c := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result at the output layers of the gated rows
    summed into their clusters. -/
theorem algebraic : Cert.algebraic_KernelIdeal_ReferenceIdeal := by
  intro m ρ m' ρ' _ hagree
  refine ⟨fun c => Cert.KernelIdeal.Thread.value m c, ?_, ?_⟩
  · exact (θ_run Cert.KernelIdeal.defs _ _).mono
      (fun _ h c => ⟨(h c).1.trans (Cert.KernelIdeal.Thread.result_eq m ρ c), (h c).2⟩)
      (Cert.KernelIdeal.Run.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v38_eq, Cert.ReferenceIdeal.RefValue.result_eq, a0, a1, a2, a3, a4, a5, a6, a7, a8, a9,
      a10, a11]
    exact value_eq m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
